-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x768 .f32) (main_arg1 : IVec S2x1600000 32) (main_arg2 : FVec F S768x128 .f32) (main_arg3 : FVec F S128 .f32) (main_arg4 : FVec F S128x2 .f32) (main_arg5 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S688 : Shape := ⟨1, ![688]⟩
abbrev S1650688 : Shape := ⟨1, ![1650688]⟩
abbrev S1650688x1 : Shape := ⟨2, ![1650688, 1]⟩
abbrev S50000x128 : Shape := ⟨2, ![50000, 128]⟩
abbrev S2000x768 : Shape := ⟨2, ![2000, 768]⟩
abbrev S2000x128 : Shape := ⟨2, ![2000, 128]⟩
abbrev S1650688x128 : Shape := ⟨2, ![1650688, 128]⟩
abbrev S4096x128 : Shape := ⟨2, ![4096, 128]⟩
abbrev S4096x1 : Shape := ⟨2, ![4096, 1]⟩
abbrev S1x128 : Shape := ⟨2, ![1, 128]⟩
abbrev S50000x2 : Shape := ⟨2, ![50000, 2]⟩
abbrev S2000x2 : Shape := ⟨2, ![2000, 2]⟩
abbrev S1650688x2 : Shape := ⟨2, ![1650688, 2]⟩
abbrev S4096x2 : Shape := ⟨2, ![4096, 2]⟩
abbrev S1x2 : Shape := ⟨2, ![1, 2]⟩
abbrev S2000 : Shape := ⟨1, ![2000]⟩
abbrev S2000x1 : Shape := ⟨2, ![2000, 1]⟩

abbrev nBuf : Space → Nat
  | .hbm => 90
  | .vmem => 32
  | .smem => 0
  | _ => 0

abbrev bufTy : (tb : Table) → Fin (tcTables nBuf tb) → BufTy
  | .hbm, ⟨0, _⟩ => ⟨S50000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S_, .i32⟩
  | .hbm, ⟨47, _⟩ => ⟨S688, .i32⟩
  | .hbm, ⟨48, _⟩ => ⟨S1650688, .i32⟩
  | .hbm, ⟨49, _⟩ => ⟨S_, .i32⟩
  | .hbm, ⟨50, _⟩ => ⟨S688, .i32⟩
  | .hbm, ⟨51, _⟩ => ⟨S1650688, .i32⟩
  | .hbm, ⟨52, _⟩ => ⟨S_, .f32⟩
  | .hbm, ⟨53, _⟩ => ⟨S688, .f32⟩
  | .hbm, ⟨54, _⟩ => ⟨S1650688, .f32⟩
  | .hbm, ⟨55, _⟩ => ⟨S1650688x1, .f32⟩
  | .hbm, ⟨56, _⟩ => ⟨S50000x128, .f32⟩
  | .hbm, ⟨57, _⟩ => ⟨S_, .i32⟩
  | .hbm, ⟨58, _⟩ => ⟨S1650688, .i32⟩
  | .hbm, ⟨59, _⟩ => ⟨S1650688, .i1⟩
  | .hbm, ⟨60, _⟩ => ⟨S_, .i32⟩
  | .hbm, ⟨61, _⟩ => ⟨S1650688, .i32⟩
  | .hbm, ⟨62, _⟩ => ⟨S1650688, .i32⟩
  | .hbm, ⟨63, _⟩ => ⟨S1650688, .i32⟩
  | .hbm, ⟨64, _⟩ => ⟨S1650688x1, .i32⟩
  | .hbm, ⟨65, _⟩ => ⟨S1650688x128, .f32⟩
  | .hbm, ⟨66, _⟩ => ⟨S1650688x128, .f32⟩
  | .hbm, ⟨67, _⟩ => ⟨S_, .f32⟩
  | .hbm, ⟨68, _⟩ => ⟨S50000x128, .f32⟩
  | .hbm, ⟨69, _⟩ => ⟨S1650688x1, .i32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x2, .f32⟩
  | .hbm, ⟨74, _⟩ => ⟨S_, .i32⟩
  | .hbm, ⟨75, _⟩ => ⟨S1650688, .i32⟩
  | .hbm, ⟨76, _⟩ => ⟨S1650688, .i1⟩
  | .hbm, ⟨77, _⟩ => ⟨S_, .i32⟩
  | .hbm, ⟨78, _⟩ => ⟨S1650688, .i32⟩
  | .hbm, ⟨79, _⟩ => ⟨S1650688, .i32⟩
  | .hbm, ⟨80, _⟩ => ⟨S1650688, .i32⟩
  | .hbm, ⟨81, _⟩ => ⟨S1650688x1, .i32⟩
  | .hbm, ⟨82, _⟩ => ⟨S1650688x2, .f32⟩
  | .hbm, ⟨83, _⟩ => ⟨S1650688x2, .f32⟩
  | .hbm, ⟨84, _⟩ => ⟨S_, .f32⟩
  | .hbm, ⟨85, _⟩ => ⟨S50000x2, .f32⟩
  | .hbm, ⟨86, _⟩ => ⟨S1650688x1, .i32⟩
  | .hbm, ⟨87, _⟩ => ⟨S50000x2, .f32⟩
  | .hbm, ⟨88, _⟩ => ⟨S1x2, .f32⟩
  | .hbm, ⟨89, _⟩ => ⟨S50000x2, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x128, .f32⟩
  | .local _ .vmem, ⟨4, _⟩ => ⟨S2000x128, .f32⟩
  | .local _ .vmem, ⟨5, _⟩ => ⟨S4096x128, .f32⟩
  | .local _ .vmem, ⟨6, _⟩ => ⟨S4096x128, .f32⟩
  | .local _ .vmem, ⟨7, _⟩ => ⟨S4096x1, .f32⟩
  | .local _ .vmem, ⟨8, _⟩ => ⟨S4096x1, .f32⟩
  | .local _ .vmem, ⟨9, _⟩ => ⟨S4096x128, .f32⟩
  | .local _ .vmem, ⟨10, _⟩ => ⟨S4096x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x2, .f32⟩
  | .local _ .vmem, ⟨19, _⟩ => ⟨S2000x2, .f32⟩
  | .local _ .vmem, ⟨20, _⟩ => ⟨S2000x2, .f32⟩
  | .local _ .vmem, ⟨21, _⟩ => ⟨S4096x2, .f32⟩
  | .local _ .vmem, ⟨22, _⟩ => ⟨S4096x2, .f32⟩
  | .local _ .vmem, ⟨23, _⟩ => ⟨S4096x1, .f32⟩
  | .local _ .vmem, ⟨24, _⟩ => ⟨S4096x1, .f32⟩
  | .local _ .vmem, ⟨25, _⟩ => ⟨S4096x2, .f32⟩
  | .local _ .vmem, ⟨26, _⟩ => ⟨S4096x2, .f32⟩
  | .local _ .vmem, ⟨27, _⟩ => ⟨S2000x2, .f32⟩
  | .local _ .vmem, ⟨28, _⟩ => ⟨S2000x2, .f32⟩
  | .local _ .vmem, ⟨29, _⟩ => ⟨S1x2, .f32⟩
  | .local _ .vmem, ⟨30, _⟩ => ⟨S2000x2, .f32⟩
  | .local _ .vmem, ⟨31, _⟩ => ⟨S2000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![403], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S688 : S_.BroadcastsInDim S688 (![] : Fin 0 → Fin S688.rank)
  concatenates_S1650000_S688_S1650688_d0 : Shape.Concatenates [S1650000, S688] S1650688 0
  shapeCasts_S1650688_S1650688x1 : S1650688.ShapeCasts S1650688x1
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x128_S2000x128_0_0 : ∀ a, (![0, 0] : Fin 2 → Nat) a + S2000x128.size a ≤ S2000x128.size a
  h_S2000x128 : 0 < S2000x128.numel
  bcast_S_S1650688 : S_.BroadcastsInDim S1650688 (![] : Fin 0 → Fin S1650688.rank)
  bcast_S1650688_S1650688x1_0 : S1650688.BroadcastsInDim S1650688x1 (![0] : Fin 1 → Fin S1650688x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S2000x2_S2000x2_0_0 : ∀ a, (![0, 0] : Fin 2 → Nat) a + S2000x2.size a ≤ S2000x2.size a
  h_S2000x2 : 0 < S2000x2.numel
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  broadcasts_S4096x1_S4096x2 : S4096x1.Broadcasts S4096x2
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  broadcasts_S2000x1_S2000x2 : S2000x1.Broadcasts S2000x2
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x768_S768x128_S2000x128_1_0_0_1_n_n_wf : DotDims.WF S2000x768 S768x128 S2000x128 [1] [0] [0] [1] [] []
  gather_S50000x128_S1650688x1_S1650688x128_1_0_n_n_0_1_1128_wf : GatherDims.WF S50000x128 S1650688x1 S1650688x128 [1] [0] [] [0] [] 1 ![1, 128]
  scatter_S50000x128_S1650688x1_S1650688x128_1_0_0_1_wf : ScatterDims.WF S50000x128 S1650688x1 S1650688x128 [1] [0] [0] 1
  dot_S2000x128_S128x2_S2000x2_1_0_0_1_n_n_wf : DotDims.WF S2000x128 S128x2 S2000x2 [1] [0] [0] [1] [] []
  gather_S50000x2_S1650688x1_S1650688x2_1_0_n_n_0_1_12_wf : GatherDims.WF S50000x2 S1650688x1 S1650688x2 [1] [0] [] [0] [] 1 ![1, 2]
  scatter_S50000x2_S1650688x1_S1650688x2_1_0_0_1_wf : ScatterDims.WF S50000x2 S1650688x1 S1650688x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S1650688x128.size a
  hwx1_0 : ∀ i : grid1.Coords, EltTy.bits .f32 = 32 ∨ (Rect.block (s := S1650688x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S1650688x1.size a
  hwx1_1 : ∀ i : grid1.Coords, EltTy.bits .f32 = 32 ∨ (Rect.block (s := S1650688x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S1650688x128.size a
  hwx1_2 : ∀ i : grid1.Coords, EltTy.bits .f32 = 32 ∨ (Rect.block (s := S1650688x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x2.size a ≤ S128x2.size a
  hwx3_1 : ∀ i : grid3.Coords, EltTy.bits .f32 = 32 ∨ (Rect.block (s := S128x2) S128x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x2.size a ≤ S50000x2.size a
  hwx3_2 : ∀ i : grid3.Coords, EltTy.bits .f32 = 32 ∨ (Rect.block (s := S50000x2) S2000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x2.size a ≤ S1650688x2.size a
  hwx4_0 : ∀ i : grid4.Coords, EltTy.bits .f32 = 32 ∨ (Rect.block (s := S1650688x2) S4096x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S1650688x1.size a
  hwx4_1 : ∀ i : grid4.Coords, EltTy.bits .f32 = 32 ∨ (Rect.block (s := S1650688x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x2.size a ≤ S1650688x2.size a
  hwx4_2 : ∀ i : grid4.Coords, EltTy.bits .f32 = 32 ∨ (Rect.block (s := S1650688x2) S4096x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x2.size a ≤ S50000x2.size a
  hwx5_0 : ∀ i : grid5.Coords, EltTy.bits .f32 = 32 ∨ (Rect.block (s := S50000x2) S2000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x2.size a ≤ S50000x2.size a
  hwx5_2 : ∀ i : grid5.Coords, EltTy.bits .f32 = 32 ∨ (Rect.block (s := S50000x2) S2000x2.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S1650688x1_S1650688x128_1_0_n_n_0_1_1128 : GatherDims S50000x128 S1650688x1 S1650688x128 where
  offsetDims := [1]
  collapsedSliceDims := [0]
  operandBatchingDims := []
  startIndicesBatchingDims := []
  startIndexMap := [0]
  indexVectorDim := 1
  sliceSizes := ![1, 128]
  wf := gather_S50000x128_S1650688x1_S1650688x128_1_0_n_n_0_1_1128_wf
def scatter_S50000x128_S1650688x1_S1650688x128_1_0_0_1 : ScatterDims S50000x128 S1650688x1 S1650688x128 where
  updateWindowDims := [1]
  insertedWindowDims := [0]
  scatterDimsToOperandDims := [0]
  indexVectorDim := 1
  wf := scatter_S50000x128_S1650688x1_S1650688x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S1650688x1_S1650688x2_1_0_n_n_0_1_12 : GatherDims S50000x2 S1650688x1 S1650688x2 where
  offsetDims := [1]
  collapsedSliceDims := [0]
  operandBatchingDims := []
  startIndicesBatchingDims := []
  startIndexMap := [0]
  indexVectorDim := 1
  sliceSizes := ![1, 2]
  wf := gather_S50000x2_S1650688x1_S1650688x2_1_0_n_n_0_1_12_wf
def scatter_S50000x2_S1650688x1_S1650688x2_1_0_0_1 : ScatterDims S50000x2 S1650688x1 S1650688x2 where
  updateWindowDims := [1]
  insertedWindowDims := [0]
  scatterDimsToOperandDims := [0]
  indexVectorDim := 1
  wf := scatter_S50000x2_S1650688x1_S1650688x2_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S2000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S4096x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S4096x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v62) S2000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S2000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S50000x128 : Shape := ⟨2, ![50000, 128]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x2 : Shape := ⟨2, ![50000, 2]⟩
abbrev S1650000x2 : Shape := ⟨2, ![1650000, 2]⟩
abbrev S1x2 : Shape := ⟨2, ![1, 2]⟩
abbrev S50000x1 : Shape := ⟨2, ![50000, 1]⟩

abbrev nBuf : Space → Nat
  | .hbm => 136
  | .vmem => 0
  | .smem => 0
  | _ => 0

abbrev hbmTy0_0 (i : Nat) : BufTy := match i % 128 with
  | 0 => ⟨S50000x768, .f32⟩
  | 1 => ⟨S2x1600000, .i32⟩
  | 2 => ⟨S768x128, .f32⟩
  | 3 => ⟨S128, .f32⟩
  | 4 => ⟨S128x2, .f32⟩
  | 5 => ⟨S2, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S50000x128, .f32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x2, .f32⟩
  | 70 => ⟨S_, .f32⟩
  | 71 => ⟨S1650000, .f32⟩
  | 72 => ⟨S_, .f32⟩
  | 73 => ⟨S50000, .f32⟩
  | 74 => ⟨S1650000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000, .f32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000x2, .f32⟩
  | 112 => ⟨S1650000x1, .f32⟩
  | 113 => ⟨S1650000x2, .f32⟩
  | 114 => ⟨S1650000x2, .f32⟩
  | 115 => ⟨S_, .f32⟩
  | 116 => ⟨S50000x2, .f32⟩
  | 117 => ⟨S1650000x1, .i32⟩
  | 118 => ⟨S50000x2, .f32⟩
  | 119 => ⟨S1x2, .f32⟩
  | 120 => ⟨S50000x2, .f32⟩
  | 121 => ⟨S50000x2, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x768, .f32⟩

abbrev hbmTy0_1 (i : Nat) : BufTy := match i % 128 with
  | 0 => ⟨S50000x2, .f32⟩
  | 1 => ⟨S50000x2, .f32⟩
  | 2 => ⟨S50000x2, .f32⟩
  | 3 => ⟨S_, .f32⟩
  | 4 => ⟨S50000, .f32⟩
  | 5 => ⟨S50000x1, .f32⟩
  | 6 => ⟨S50000x2, .f32⟩
  | 7 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  dot_S50000x768_S768x128_S50000x128_1_0_0_1_n_n_wf : DotDims.WF S50000x768 S768x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x2_S50000x2_1_0_0_1_n_n_wf : DotDims.WF S50000x128 S128x2 S50000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1

variable [Facts₀]

def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

class Facts : Prop extends Facts₀ where

variable [Facts]
-- ==== Proof.Spec.lean ====
/-
  The two graph-convolution layers, as whole-array functions over the extended reals, index by index.

  A layer is: a dense product `h = x · W`; per edge `e` the message `h[src e] · norm e`; per node the sum of the
  messages of the edges that point at it; a bias; an activation (the positive part in the first layer, a softmax
  along the row in the second). The functions below are the dense pieces — each one pallas region of the kernel and
  one or a few host operations of the reference. The edge pieces (the row gather, the scatter-add) stay host
  operations on both sides and are compared as such.
-/
import Idealize.ShloMosaic.PureOps.Ideal
import Idealize.ShloMosaic.PureOps.Ideal.Laws
import Idealize.ShloMosaic.Lib.ValueIdx

noncomputable section

open scoped BigOperators

namespace Cert.GCN

open Idealize.ShloMosaic Idealize.ShloMosaic.ValueIdx

/-- A rank-2 array of extended reals with `r` rows and `c` columns. -/
abbrev Mat (r c : Nat) : Type := (⟨2, ![r, c]⟩ : Shape).Idx → EReal

/-- The dense product: entry `(p, q)` is the sum over `k` of `x (p, k) · w (k, q)`. -/
def mm (M K N : Nat) (x : Mat M K) (w : Mat K N) : Mat M N :=
  fun i => ∑ k : Fin K, x (ix2 (i 0) k) * w (ix2 k (i 1))

/-- Every row of `g` scaled by that row's entry of the one-column array `n`. -/
def scale (E C : Nat) (g : Mat E C) (n : Mat E 1) : Mat E C :=
  fun i => g i * n (ix2 (i 0) 0)

/-- The one-row array `b` added to every row of `a`. -/
def biased (M C : Nat) (a : Mat M C) (b : Mat 1 C) : Mat M C :=
  fun i => a i + b (ix2 0 (i 1))

/-- Bias, then the positive part. -/
def biasRelu (M C : Nat) (a : Mat M C) (b : Mat 1 C) : Mat M C :=
  fun i => max (biased M C a b i) 0

/-- The largest entry of row `r` of `z` (and `⊥` for an empty row): the fold of `max` from `⊥`, once more against `⊥`. -/
def rowMax (M C : Nat) (z : Mat M C) (r : Fin M) : EReal :=
  max ⊥ ((Finset.univ : Finset (Fin C)).fold max ⊥ (fun k => z (ix2 r k)))

/-- The softmax along each row: `exp (z − rowMax)` over the row's sum of those. -/
def softmaxRows (M C : Nat) (z : Mat M C) : Mat M C :=
  fun i => Ideal.div (Ideal.exp (z i - rowMax M C z (i 0)))
    (∑ k : Fin C, Ideal.exp (z (ix2 (i 0) k) - rowMax M C z (i 0)))

/-- Bias, then the softmax along each row. -/
def biasSoftmax (M C : Nat) (a : Mat M C) (b : Mat 1 C) : Mat M C :=
  softmaxRows M C (biased M C a b)

end Cert.GCN

end
-- ==== Proof.EdgeSpec.lean ====
/-
  Where an edge's row index points. A scatter-add reads the index as a signed integer and DROPS an update whose row is
  outside the array; a gather reads it signed and CLAMPS it into the array. Both depend on the edge only through one
  32-bit word, so they are stated here once, over that word.
-/
import Idealize.ShloMosaic.PureOps.Ideal
import Idealize.ShloMosaic.Lib.ValueIdx

noncomputable section

namespace Cert.GCN

open Idealize.ShloMosaic Idealize.ShloMosaic.ValueIdx

/-- The entry `(w, col)` of an array of `N` rows and `C` columns, when the signed word `w` is a row of it. -/
def rowTarget (N C : Nat) (w : BitVec 32) (col : Fin C) : Option ((⟨2, ![N, C]⟩ : Shape).Idx) :=
  if h : 0 ≤ w.toInt ∧ w.toInt < (N : Int) then some (ix2 ⟨w.toInt.toNat, by omega⟩ col) else none

/-- The signed word `w` clamped to a row of an array of `N` rows: negative to `0`, too large to `N − 1`. -/
def rowClamp (N : Nat) (hN : 0 < N) (w : BitVec 32) : Fin N := ⟨min w.toInt.toNat (N - 1), by omega⟩

end Cert.GCN

end
-- ==== Proof.ScatterIdx.lean ====
/-
  The row scatter's landing index, in closed form: update `(e, col)` lands at `(idx e, col)` when the signed word
  `idx e` is a row of the operand, and nowhere otherwise — for the padded edge list (the kernel's) and the plain one
  (the reference's), at feature widths 128 and 2.

  One argument at four dimension-number records. The operand's row axis is the inserted window axis and the only axis
  the index map names; the column axis is the only kept axis. So the window start is `(idx e, 0)`, the window
  coordinate is `(0, col)`, their sum is `(idx e, col)`, and the range condition on the column axis always holds.
-/
import proofs.«130536_j28544352649461_1_alg».proof.KernelIdeal
import proofs.«130536_j28544352649461_1_alg».proof.Proof.Gen.KernelIdeal
import proofs.«130536_j28544352649461_1_alg».proof.ReferenceIdeal
import proofs.«130536_j28544352649461_1_alg».proof.Proof.Gen.ReferenceIdeal
import proofs.«130536_j28544352649461_1_alg».proof.Proof.EdgeSpec
import Idealize.ShloMosaic.Lib.Pipeline.Value
import Idealize.ShloMosaic.Lib.ValueIdx
import Idealize.ShloMosaic.Lib.ValueLayout

set_option maxRecDepth 16384

noncomputable section

namespace Cert.GCN.Edges

open Idealize.ShloMosaic Idealize.ShloMosaic.ValueIdx

/-! ### 1650688 edges, 128 columns -/

/-- The scatter-indices entry an update reads its one start component from: the update's row, column `0`. -/
theorem K128_siIdx (j : Cert.KernelIdeal.S1650688x128.Idx) (c : Fin (Cert.KernelIdeal.scatter_S50000x128_S1650688x1_S1650688x128_1_0_0_1).scatterDimsToOperandDims.length) :
    (Cert.KernelIdeal.scatter_S50000x128_S1650688x1_S1650688x128_1_0_0_1).siIdx j c = ix2 (j 0) 0 := by
  funext b
  match b with
  | ⟨0, _⟩ => rfl
  | ⟨1, _⟩ =>
    match c with
    | ⟨0, _⟩ => rfl

/-- On the row axis the window starts at the signed index word. -/
theorem K128_start0 (j : Cert.KernelIdeal.S1650688x128.Idx) (idx : IVec Cert.KernelIdeal.S1650688x1 32) :
    (Cert.KernelIdeal.scatter_S50000x128_S1650688x1_S1650688x128_1_0_0_1).start j idx 0 = (idx (ix2 (j 0) 0)).toInt := by
  unfold ScatterDims.start
  rw [dif_pos (by decide)]
  exact congrArg (fun k => (idx k).toInt) (K128_siIdx j _)

/-- The column axis is not named by the index map: the window starts at `0` there. -/
theorem K128_start1 (j : Cert.KernelIdeal.S1650688x128.Idx) (idx : IVec Cert.KernelIdeal.S1650688x1 32) :
    (Cert.KernelIdeal.scatter_S50000x128_S1650688x1_S1650688x128_1_0_0_1).start j idx 1 = 0 := by
  unfold ScatterDims.start
  rw [dif_neg (by decide)]

/-- The row axis is an inserted window axis: the window coordinate is `0` there. -/
theorem K128_window0 (j : Cert.KernelIdeal.S1650688x128.Idx) :
    (Cert.KernelIdeal.scatter_S50000x128_S1650688x1_S1650688x128_1_0_0_1).window j 0 = 0 := by
  unfold ScatterDims.window
  rw [dif_neg (by decide)]

/-- The column axis is the one kept axis: the window coordinate is the update's column. -/
theorem K128_window1 (j : Cert.KernelIdeal.S1650688x128.Idx) :
    (Cert.KernelIdeal.scatter_S50000x128_S1650688x1_S1650688x128_1_0_0_1).window j 1 = (j 1).val := by
  unfold ScatterDims.window
  rw [dif_pos (by decide)]
  rfl

theorem scatterK128 (j : Cert.KernelIdeal.S1650688x128.Idx) (idx : IVec Cert.KernelIdeal.S1650688x1 32) :
    Cert.KernelIdeal.scatter_S50000x128_S1650688x1_S1650688x128_1_0_0_1.resultIdx? j idx = Cert.GCN.rowTarget 50000 128 (idx (ix2 (j 0) 0)) (j 1) := by
  have hs0 := K128_start0 j idx
  have hs1 := K128_start1 j idx
  have hw0 := K128_window0 j
  have hw1 := K128_window1 j
  have hj1 : (j 1).val < 128 := idx2_lt1 j
  unfold Cert.GCN.rowTarget
  split
  · next hr =>
    -- the row is in range: both axes are in range (the column always is), and the two indices agree axis by axis
    have hall : ∀ a, 0 ≤ (Cert.KernelIdeal.scatter_S50000x128_S1650688x1_S1650688x128_1_0_0_1).start j idx a + (Cert.KernelIdeal.scatter_S50000x128_S1650688x1_S1650688x128_1_0_0_1).window j a ∧
        (Cert.KernelIdeal.scatter_S50000x128_S1650688x1_S1650688x128_1_0_0_1).start j idx a + (Cert.KernelIdeal.scatter_S50000x128_S1650688x1_S1650688x128_1_0_0_1).window j a < Cert.KernelIdeal.S50000x128.size a := by
      intro a
      match a with
      | ⟨0, _⟩ =>
        show 0 ≤ (Cert.KernelIdeal.scatter_S50000x128_S1650688x1_S1650688x128_1_0_0_1).start j idx 0 + (Cert.KernelIdeal.scatter_S50000x128_S1650688x1_S1650688x128_1_0_0_1).window j 0 ∧
          (Cert.KernelIdeal.scatter_S50000x128_S1650688x1_S1650688x128_1_0_0_1).start j idx 0 + (Cert.KernelIdeal.scatter_S50000x128_S1650688x1_S1650688x128_1_0_0_1).window j 0 < (50000 : Nat)
        rw [hs0, hw0]; omega
      | ⟨1, _⟩ =>
        show 0 ≤ (Cert.KernelIdeal.scatter_S50000x128_S1650688x1_S1650688x128_1_0_0_1).start j idx 1 + (Cert.KernelIdeal.scatter_S50000x128_S1650688x1_S1650688x128_1_0_0_1).window j 1 ∧
          (Cert.KernelIdeal.scatter_S50000x128_S1650688x1_S1650688x128_1_0_0_1).start j idx 1 + (Cert.KernelIdeal.scatter_S50000x128_S1650688x1_S1650688x128_1_0_0_1).window j 1 < (128 : Nat)
        rw [hs1, hw1]; omega
    unfold ScatterDims.resultIdx?
    rw [dif_pos hall]
    congr 1
    funext a
    match a with
    | ⟨0, _⟩ =>
      apply Fin.ext
      show ((Cert.KernelIdeal.scatter_S50000x128_S1650688x1_S1650688x128_1_0_0_1).start j idx 0 + (Cert.KernelIdeal.scatter_S50000x128_S1650688x1_S1650688x128_1_0_0_1).window j 0).toNat = (idx (ix2 (j 0) 0)).toInt.toNat
      rw [hs0, hw0]; simp
    | ⟨1, _⟩ =>
      apply Fin.ext
      show ((Cert.KernelIdeal.scatter_S50000x128_S1650688x1_S1650688x128_1_0_0_1).start j idx 1 + (Cert.KernelIdeal.scatter_S50000x128_S1650688x1_S1650688x128_1_0_0_1).window j 1).toNat = (j 1).val
      rw [hs1, hw1]; simp
  · next hr =>
    -- the row is out of range: the row axis already fails the range condition, so the update is dropped
    have hall : ¬ ∀ a, 0 ≤ (Cert.KernelIdeal.scatter_S50000x128_S1650688x1_S1650688x128_1_0_0_1).start j idx a + (Cert.KernelIdeal.scatter_S50000x128_S1650688x1_S1650688x128_1_0_0_1).window j a ∧
        (Cert.KernelIdeal.scatter_S50000x128_S1650688x1_S1650688x128_1_0_0_1).start j idx a + (Cert.KernelIdeal.scatter_S50000x128_S1650688x1_S1650688x128_1_0_0_1).window j a < Cert.KernelIdeal.S50000x128.size a := by
      intro h
      have h0 := h 0
      rw [hs0, hw0] at h0
      apply hr
      have : Cert.KernelIdeal.S50000x128.size 0 = 50000 := rfl
      omega
    unfold ScatterDims.resultIdx?
    rw [dif_neg hall]

/-! ### 1650000 edges, 128 columns -/

/-- The scatter-indices entry an update reads its one start component from: the update's row, column `0`. -/
theorem R128_siIdx (j : Cert.ReferenceIdeal.S1650000x128.Idx) (c : Fin (Cert.ReferenceIdeal.scatter_S50000x128_S1650000x1_S1650000x128_1_0_0_1).scatterDimsToOperandDims.length) :
    (Cert.ReferenceIdeal.scatter_S50000x128_S1650000x1_S1650000x128_1_0_0_1).siIdx j c = ix2 (j 0) 0 := by
  funext b
  match b with
  | ⟨0, _⟩ => rfl
  | ⟨1, _⟩ =>
    match c with
    | ⟨0, _⟩ => rfl

/-- On the row axis the window starts at the signed index word. -/
theorem R128_start0 (j : Cert.ReferenceIdeal.S1650000x128.Idx) (idx : IVec Cert.ReferenceIdeal.S1650000x1 32) :
    (Cert.ReferenceIdeal.scatter_S50000x128_S1650000x1_S1650000x128_1_0_0_1).start j idx 0 = (idx (ix2 (j 0) 0)).toInt := by
  unfold ScatterDims.start
  rw [dif_pos (by decide)]
  exact congrArg (fun k => (idx k).toInt) (R128_siIdx j _)

/-- The column axis is not named by the index map: the window starts at `0` there. -/
theorem R128_start1 (j : Cert.ReferenceIdeal.S1650000x128.Idx) (idx : IVec Cert.ReferenceIdeal.S1650000x1 32) :
    (Cert.ReferenceIdeal.scatter_S50000x128_S1650000x1_S1650000x128_1_0_0_1).start j idx 1 = 0 := by
  unfold ScatterDims.start
  rw [dif_neg (by decide)]

/-- The row axis is an inserted window axis: the window coordinate is `0` there. -/
theorem R128_window0 (j : Cert.ReferenceIdeal.S1650000x128.Idx) :
    (Cert.ReferenceIdeal.scatter_S50000x128_S1650000x1_S1650000x128_1_0_0_1).window j 0 = 0 := by
  unfold ScatterDims.window
  rw [dif_neg (by decide)]

/-- The column axis is the one kept axis: the window coordinate is the update's column. -/
theorem R128_window1 (j : Cert.ReferenceIdeal.S1650000x128.Idx) :
    (Cert.ReferenceIdeal.scatter_S50000x128_S1650000x1_S1650000x128_1_0_0_1).window j 1 = (j 1).val := by
  unfold ScatterDims.window
  rw [dif_pos (by decide)]
  rfl

theorem scatterR128 (j : Cert.ReferenceIdeal.S1650000x128.Idx) (idx : IVec Cert.ReferenceIdeal.S1650000x1 32) :
    Cert.ReferenceIdeal.scatter_S50000x128_S1650000x1_S1650000x128_1_0_0_1.resultIdx? j idx = Cert.GCN.rowTarget 50000 128 (idx (ix2 (j 0) 0)) (j 1) := by
  have hs0 := R128_start0 j idx
  have hs1 := R128_start1 j idx
  have hw0 := R128_window0 j
  have hw1 := R128_window1 j
  have hj1 : (j 1).val < 128 := idx2_lt1 j
  unfold Cert.GCN.rowTarget
  split
  · next hr =>
    -- the row is in range: both axes are in range (the column always is), and the two indices agree axis by axis
    have hall : ∀ a, 0 ≤ (Cert.ReferenceIdeal.scatter_S50000x128_S1650000x1_S1650000x128_1_0_0_1).start j idx a + (Cert.ReferenceIdeal.scatter_S50000x128_S1650000x1_S1650000x128_1_0_0_1).window j a ∧
        (Cert.ReferenceIdeal.scatter_S50000x128_S1650000x1_S1650000x128_1_0_0_1).start j idx a + (Cert.ReferenceIdeal.scatter_S50000x128_S1650000x1_S1650000x128_1_0_0_1).window j a < Cert.ReferenceIdeal.S50000x128.size a := by
      intro a
      match a with
      | ⟨0, _⟩ =>
        show 0 ≤ (Cert.ReferenceIdeal.scatter_S50000x128_S1650000x1_S1650000x128_1_0_0_1).start j idx 0 + (Cert.ReferenceIdeal.scatter_S50000x128_S1650000x1_S1650000x128_1_0_0_1).window j 0 ∧
          (Cert.ReferenceIdeal.scatter_S50000x128_S1650000x1_S1650000x128_1_0_0_1).start j idx 0 + (Cert.ReferenceIdeal.scatter_S50000x128_S1650000x1_S1650000x128_1_0_0_1).window j 0 < (50000 : Nat)
        rw [hs0, hw0]; omega
      | ⟨1, _⟩ =>
        show 0 ≤ (Cert.ReferenceIdeal.scatter_S50000x128_S1650000x1_S1650000x128_1_0_0_1).start j idx 1 + (Cert.ReferenceIdeal.scatter_S50000x128_S1650000x1_S1650000x128_1_0_0_1).window j 1 ∧
          (Cert.ReferenceIdeal.scatter_S50000x128_S1650000x1_S1650000x128_1_0_0_1).start j idx 1 + (Cert.ReferenceIdeal.scatter_S50000x128_S1650000x1_S1650000x128_1_0_0_1).window j 1 < (128 : Nat)
        rw [hs1, hw1]; omega
    unfold ScatterDims.resultIdx?
    rw [dif_pos hall]
    congr 1
    funext a
    match a with
    | ⟨0, _⟩ =>
      apply Fin.ext
      show ((Cert.ReferenceIdeal.scatter_S50000x128_S1650000x1_S1650000x128_1_0_0_1).start j idx 0 + (Cert.ReferenceIdeal.scatter_S50000x128_S1650000x1_S1650000x128_1_0_0_1).window j 0).toNat = (idx (ix2 (j 0) 0)).toInt.toNat
      rw [hs0, hw0]; simp
    | ⟨1, _⟩ =>
      apply Fin.ext
      show ((Cert.ReferenceIdeal.scatter_S50000x128_S1650000x1_S1650000x128_1_0_0_1).start j idx 1 + (Cert.ReferenceIdeal.scatter_S50000x128_S1650000x1_S1650000x128_1_0_0_1).window j 1).toNat = (j 1).val
      rw [hs1, hw1]; simp
  · next hr =>
    -- the row is out of range: the row axis already fails the range condition, so the update is dropped
    have hall : ¬ ∀ a, 0 ≤ (Cert.ReferenceIdeal.scatter_S50000x128_S1650000x1_S1650000x128_1_0_0_1).start j idx a + (Cert.ReferenceIdeal.scatter_S50000x128_S1650000x1_S1650000x128_1_0_0_1).window j a ∧
        (Cert.ReferenceIdeal.scatter_S50000x128_S1650000x1_S1650000x128_1_0_0_1).start j idx a + (Cert.ReferenceIdeal.scatter_S50000x128_S1650000x1_S1650000x128_1_0_0_1).window j a < Cert.ReferenceIdeal.S50000x128.size a := by
      intro h
      have h0 := h 0
      rw [hs0, hw0] at h0
      apply hr
      have : Cert.ReferenceIdeal.S50000x128.size 0 = 50000 := rfl
      omega
    unfold ScatterDims.resultIdx?
    rw [dif_neg hall]

/-! ### 1650688 edges, 2 columns -/

/-- The scatter-indices entry an update reads its one start component from: the update's row, column `0`. -/
theorem K2_siIdx (j : Cert.KernelIdeal.S1650688x2.Idx) (c : Fin (Cert.KernelIdeal.scatter_S50000x2_S1650688x1_S1650688x2_1_0_0_1).scatterDimsToOperandDims.length) :
    (Cert.KernelIdeal.scatter_S50000x2_S1650688x1_S1650688x2_1_0_0_1).siIdx j c = ix2 (j 0) 0 := by
  funext b
  match b with
  | ⟨0, _⟩ => rfl
  | ⟨1, _⟩ =>
    match c with
    | ⟨0, _⟩ => rfl

/-- On the row axis the window starts at the signed index word. -/
theorem K2_start0 (j : Cert.KernelIdeal.S1650688x2.Idx) (idx : IVec Cert.KernelIdeal.S1650688x1 32) :
    (Cert.KernelIdeal.scatter_S50000x2_S1650688x1_S1650688x2_1_0_0_1).start j idx 0 = (idx (ix2 (j 0) 0)).toInt := by
  unfold ScatterDims.start
  rw [dif_pos (by decide)]
  exact congrArg (fun k => (idx k).toInt) (K2_siIdx j _)

/-- The column axis is not named by the index map: the window starts at `0` there. -/
theorem K2_start1 (j : Cert.KernelIdeal.S1650688x2.Idx) (idx : IVec Cert.KernelIdeal.S1650688x1 32) :
    (Cert.KernelIdeal.scatter_S50000x2_S1650688x1_S1650688x2_1_0_0_1).start j idx 1 = 0 := by
  unfold ScatterDims.start
  rw [dif_neg (by decide)]

/-- The row axis is an inserted window axis: the window coordinate is `0` there. -/
theorem K2_window0 (j : Cert.KernelIdeal.S1650688x2.Idx) :
    (Cert.KernelIdeal.scatter_S50000x2_S1650688x1_S1650688x2_1_0_0_1).window j 0 = 0 := by
  unfold ScatterDims.window
  rw [dif_neg (by decide)]

/-- The column axis is the one kept axis: the window coordinate is the update's column. -/
theorem K2_window1 (j : Cert.KernelIdeal.S1650688x2.Idx) :
    (Cert.KernelIdeal.scatter_S50000x2_S1650688x1_S1650688x2_1_0_0_1).window j 1 = (j 1).val := by
  unfold ScatterDims.window
  rw [dif_pos (by decide)]
  rfl

theorem scatterK2 (j : Cert.KernelIdeal.S1650688x2.Idx) (idx : IVec Cert.KernelIdeal.S1650688x1 32) :
    Cert.KernelIdeal.scatter_S50000x2_S1650688x1_S1650688x2_1_0_0_1.resultIdx? j idx = Cert.GCN.rowTarget 50000 2 (idx (ix2 (j 0) 0)) (j 1) := by
  have hs0 := K2_start0 j idx
  have hs1 := K2_start1 j idx
  have hw0 := K2_window0 j
  have hw1 := K2_window1 j
  have hj1 : (j 1).val < 2 := idx2_lt1 j
  unfold Cert.GCN.rowTarget
  split
  · next hr =>
    -- the row is in range: both axes are in range (the column always is), and the two indices agree axis by axis
    have hall : ∀ a, 0 ≤ (Cert.KernelIdeal.scatter_S50000x2_S1650688x1_S1650688x2_1_0_0_1).start j idx a + (Cert.KernelIdeal.scatter_S50000x2_S1650688x1_S1650688x2_1_0_0_1).window j a ∧
        (Cert.KernelIdeal.scatter_S50000x2_S1650688x1_S1650688x2_1_0_0_1).start j idx a + (Cert.KernelIdeal.scatter_S50000x2_S1650688x1_S1650688x2_1_0_0_1).window j a < Cert.KernelIdeal.S50000x2.size a := by
      intro a
      match a with
      | ⟨0, _⟩ =>
        show 0 ≤ (Cert.KernelIdeal.scatter_S50000x2_S1650688x1_S1650688x2_1_0_0_1).start j idx 0 + (Cert.KernelIdeal.scatter_S50000x2_S1650688x1_S1650688x2_1_0_0_1).window j 0 ∧
          (Cert.KernelIdeal.scatter_S50000x2_S1650688x1_S1650688x2_1_0_0_1).start j idx 0 + (Cert.KernelIdeal.scatter_S50000x2_S1650688x1_S1650688x2_1_0_0_1).window j 0 < (50000 : Nat)
        rw [hs0, hw0]; omega
      | ⟨1, _⟩ =>
        show 0 ≤ (Cert.KernelIdeal.scatter_S50000x2_S1650688x1_S1650688x2_1_0_0_1).start j idx 1 + (Cert.KernelIdeal.scatter_S50000x2_S1650688x1_S1650688x2_1_0_0_1).window j 1 ∧
          (Cert.KernelIdeal.scatter_S50000x2_S1650688x1_S1650688x2_1_0_0_1).start j idx 1 + (Cert.KernelIdeal.scatter_S50000x2_S1650688x1_S1650688x2_1_0_0_1).window j 1 < (2 : Nat)
        rw [hs1, hw1]; omega
    unfold ScatterDims.resultIdx?
    rw [dif_pos hall]
    congr 1
    funext a
    match a with
    | ⟨0, _⟩ =>
      apply Fin.ext
      show ((Cert.KernelIdeal.scatter_S50000x2_S1650688x1_S1650688x2_1_0_0_1).start j idx 0 + (Cert.KernelIdeal.scatter_S50000x2_S1650688x1_S1650688x2_1_0_0_1).window j 0).toNat = (idx (ix2 (j 0) 0)).toInt.toNat
      rw [hs0, hw0]; simp
    | ⟨1, _⟩ =>
      apply Fin.ext
      show ((Cert.KernelIdeal.scatter_S50000x2_S1650688x1_S1650688x2_1_0_0_1).start j idx 1 + (Cert.KernelIdeal.scatter_S50000x2_S1650688x1_S1650688x2_1_0_0_1).window j 1).toNat = (j 1).val
      rw [hs1, hw1]; simp
  · next hr =>
    -- the row is out of range: the row axis already fails the range condition, so the update is dropped
    have hall : ¬ ∀ a, 0 ≤ (Cert.KernelIdeal.scatter_S50000x2_S1650688x1_S1650688x2_1_0_0_1).start j idx a + (Cert.KernelIdeal.scatter_S50000x2_S1650688x1_S1650688x2_1_0_0_1).window j a ∧
        (Cert.KernelIdeal.scatter_S50000x2_S1650688x1_S1650688x2_1_0_0_1).start j idx a + (Cert.KernelIdeal.scatter_S50000x2_S1650688x1_S1650688x2_1_0_0_1).window j a < Cert.KernelIdeal.S50000x2.size a := by
      intro h
      have h0 := h 0
      rw [hs0, hw0] at h0
      apply hr
      have : Cert.KernelIdeal.S50000x2.size 0 = 50000 := rfl
      omega
    unfold ScatterDims.resultIdx?
    rw [dif_neg hall]

/-! ### 1650000 edges, 2 columns -/

/-- The scatter-indices entry an update reads its one start component from: the update's row, column `0`. -/
theorem R2_siIdx (j : Cert.ReferenceIdeal.S1650000x2.Idx) (c : Fin (Cert.ReferenceIdeal.scatter_S50000x2_S1650000x1_S1650000x2_1_0_0_1).scatterDimsToOperandDims.length) :
    (Cert.ReferenceIdeal.scatter_S50000x2_S1650000x1_S1650000x2_1_0_0_1).siIdx j c = ix2 (j 0) 0 := by
  funext b
  match b with
  | ⟨0, _⟩ => rfl
  | ⟨1, _⟩ =>
    match c with
    | ⟨0, _⟩ => rfl

/-- On the row axis the window starts at the signed index word. -/
theorem R2_start0 (j : Cert.ReferenceIdeal.S1650000x2.Idx) (idx : IVec Cert.ReferenceIdeal.S1650000x1 32) :
    (Cert.ReferenceIdeal.scatter_S50000x2_S1650000x1_S1650000x2_1_0_0_1).start j idx 0 = (idx (ix2 (j 0) 0)).toInt := by
  unfold ScatterDims.start
  rw [dif_pos (by decide)]
  exact congrArg (fun k => (idx k).toInt) (R2_siIdx j _)

/-- The column axis is not named by the index map: the window starts at `0` there. -/
theorem R2_start1 (j : Cert.ReferenceIdeal.S1650000x2.Idx) (idx : IVec Cert.ReferenceIdeal.S1650000x1 32) :
    (Cert.ReferenceIdeal.scatter_S50000x2_S1650000x1_S1650000x2_1_0_0_1).start j idx 1 = 0 := by
  unfold ScatterDims.start
  rw [dif_neg (by decide)]

/-- The row axis is an inserted window axis: the window coordinate is `0` there. -/
theorem R2_window0 (j : Cert.ReferenceIdeal.S1650000x2.Idx) :
    (Cert.ReferenceIdeal.scatter_S50000x2_S1650000x1_S1650000x2_1_0_0_1).window j 0 = 0 := by
  unfold ScatterDims.window
  rw [dif_neg (by decide)]

/-- The column axis is the one kept axis: the window coordinate is the update's column. -/
theorem R2_window1 (j : Cert.ReferenceIdeal.S1650000x2.Idx) :
    (Cert.ReferenceIdeal.scatter_S50000x2_S1650000x1_S1650000x2_1_0_0_1).window j 1 = (j 1).val := by
  unfold ScatterDims.window
  rw [dif_pos (by decide)]
  rfl

theorem scatterR2 (j : Cert.ReferenceIdeal.S1650000x2.Idx) (idx : IVec Cert.ReferenceIdeal.S1650000x1 32) :
    Cert.ReferenceIdeal.scatter_S50000x2_S1650000x1_S1650000x2_1_0_0_1.resultIdx? j idx = Cert.GCN.rowTarget 50000 2 (idx (ix2 (j 0) 0)) (j 1) := by
  have hs0 := R2_start0 j idx
  have hs1 := R2_start1 j idx
  have hw0 := R2_window0 j
  have hw1 := R2_window1 j
  have hj1 : (j 1).val < 2 := idx2_lt1 j
  unfold Cert.GCN.rowTarget
  split
  · next hr =>
    -- the row is in range: both axes are in range (the column always is), and the two indices agree axis by axis
    have hall : ∀ a, 0 ≤ (Cert.ReferenceIdeal.scatter_S50000x2_S1650000x1_S1650000x2_1_0_0_1).start j idx a + (Cert.ReferenceIdeal.scatter_S50000x2_S1650000x1_S1650000x2_1_0_0_1).window j a ∧
        (Cert.ReferenceIdeal.scatter_S50000x2_S1650000x1_S1650000x2_1_0_0_1).start j idx a + (Cert.ReferenceIdeal.scatter_S50000x2_S1650000x1_S1650000x2_1_0_0_1).window j a < Cert.ReferenceIdeal.S50000x2.size a := by
      intro a
      match a with
      | ⟨0, _⟩ =>
        show 0 ≤ (Cert.ReferenceIdeal.scatter_S50000x2_S1650000x1_S1650000x2_1_0_0_1).start j idx 0 + (Cert.ReferenceIdeal.scatter_S50000x2_S1650000x1_S1650000x2_1_0_0_1).window j 0 ∧
          (Cert.ReferenceIdeal.scatter_S50000x2_S1650000x1_S1650000x2_1_0_0_1).start j idx 0 + (Cert.ReferenceIdeal.scatter_S50000x2_S1650000x1_S1650000x2_1_0_0_1).window j 0 < (50000 : Nat)
        rw [hs0, hw0]; omega
      | ⟨1, _⟩ =>
        show 0 ≤ (Cert.ReferenceIdeal.scatter_S50000x2_S1650000x1_S1650000x2_1_0_0_1).start j idx 1 + (Cert.ReferenceIdeal.scatter_S50000x2_S1650000x1_S1650000x2_1_0_0_1).window j 1 ∧
          (Cert.ReferenceIdeal.scatter_S50000x2_S1650000x1_S1650000x2_1_0_0_1).start j idx 1 + (Cert.ReferenceIdeal.scatter_S50000x2_S1650000x1_S1650000x2_1_0_0_1).window j 1 < (2 : Nat)
        rw [hs1, hw1]; omega
    unfold ScatterDims.resultIdx?
    rw [dif_pos hall]
    congr 1
    funext a
    match a with
    | ⟨0, _⟩ =>
      apply Fin.ext
      show ((Cert.ReferenceIdeal.scatter_S50000x2_S1650000x1_S1650000x2_1_0_0_1).start j idx 0 + (Cert.ReferenceIdeal.scatter_S50000x2_S1650000x1_S1650000x2_1_0_0_1).window j 0).toNat = (idx (ix2 (j 0) 0)).toInt.toNat
      rw [hs0, hw0]; simp
    | ⟨1, _⟩ =>
      apply Fin.ext
      show ((Cert.ReferenceIdeal.scatter_S50000x2_S1650000x1_S1650000x2_1_0_0_1).start j idx 1 + (Cert.ReferenceIdeal.scatter_S50000x2_S1650000x1_S1650000x2_1_0_0_1).window j 1).toNat = (j 1).val
      rw [hs1, hw1]; simp
  · next hr =>
    -- the row is out of range: the row axis already fails the range condition, so the update is dropped
    have hall : ¬ ∀ a, 0 ≤ (Cert.ReferenceIdeal.scatter_S50000x2_S1650000x1_S1650000x2_1_0_0_1).start j idx a + (Cert.ReferenceIdeal.scatter_S50000x2_S1650000x1_S1650000x2_1_0_0_1).window j a ∧
        (Cert.ReferenceIdeal.scatter_S50000x2_S1650000x1_S1650000x2_1_0_0_1).start j idx a + (Cert.ReferenceIdeal.scatter_S50000x2_S1650000x1_S1650000x2_1_0_0_1).window j a < Cert.ReferenceIdeal.S50000x2.size a := by
      intro h
      have h0 := h 0
      rw [hs0, hw0] at h0
      apply hr
      have : Cert.ReferenceIdeal.S50000x2.size 0 = 50000 := rfl
      omega
    unfold ScatterDims.resultIdx?
    rw [dif_neg hall]

end Cert.GCN.Edges

end
-- ==== Proof.GatherIdx.lean ====
/-
  The row gather read at an index: entry `(e, col)` of `h[idx]` is `h (clamp (idx e), col)`, the signed word clamped
  to a row — for the padded edge list (the kernel's) and the plain one (the reference's), at feature widths 128 and 2.
-/
import proofs.«130536_j28544352649461_1_alg».proof.KernelIdeal
import proofs.«130536_j28544352649461_1_alg».proof.Proof.Gen.KernelIdeal
import proofs.«130536_j28544352649461_1_alg».proof.ReferenceIdeal
import proofs.«130536_j28544352649461_1_alg».proof.Proof.Gen.ReferenceIdeal
import proofs.«130536_j28544352649461_1_alg».proof.Proof.EdgeSpec
import Idealize.ShloMosaic.Lib.Pipeline.Value
import Idealize.ShloMosaic.Lib.ValueIdx
import Idealize.ShloMosaic.Lib.ValueLayout

set_option maxRecDepth 16384

noncomputable section

namespace Cert.GCN.Edges

open Idealize.ShloMosaic Idealize.ShloMosaic.ValueIdx

theorem gatherK128 (h : Cert.KernelIdeal.S50000x128.Idx → EReal) (idx : IVec Cert.KernelIdeal.S1650688x1 32) (j : Cert.KernelIdeal.S1650688x128.Idx) :
    Host.gather Cert.KernelIdeal.gather_S50000x128_S1650688x1_S1650688x128_1_0_n_n_0_1_1128 h idx j
      = h (ix2 (Cert.GCN.rowClamp 50000 (by norm_num) (idx (ix2 (j 0) 0))) (j 1)) := by
  -- both sides read `h`; it remains to see the operand index is `(clamp, col)`, axis by axis
  unfold Host.gather
  congr 1
  funext a
  refine Fin.ext ?_
  match a with
  | ⟨0, _⟩ =>
    -- axis 0 (collapsed, in the start index map): the clamped start, no batching and no offset coordinate
    show Cert.KernelIdeal.gather_S50000x128_S1650688x1_S1650688x128_1_0_n_n_0_1_1128.start j idx 0
        + Cert.KernelIdeal.gather_S50000x128_S1650688x1_S1650688x128_1_0_n_n_0_1_1128.batchCoord j 0
        + Cert.KernelIdeal.gather_S50000x128_S1650688x1_S1650688x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S50000x128_S1650688x1_S1650688x128_1_0_n_n_0_1_1128.startIndexMap
      from List.mem_singleton.mpr rfl)]
    -- the start index is read at `(j 0, 0)` of the start indices
    have hsi : Cert.KernelIdeal.gather_S50000x128_S1650688x1_S1650688x128_1_0_n_n_0_1_1128.siIdx j
        ⟨List.idxOf (0 : Fin 2) Cert.KernelIdeal.gather_S50000x128_S1650688x1_S1650688x128_1_0_n_n_0_1_1128.startIndexMap,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 (the offset axis, not in the start index map): start 0, no batching, offset coordinate `j 1`
    show Cert.KernelIdeal.gather_S50000x128_S1650688x1_S1650688x128_1_0_n_n_0_1_1128.start j idx 1
        + Cert.KernelIdeal.gather_S50000x128_S1650688x1_S1650688x128_1_0_n_n_0_1_1128.batchCoord j 1
        + Cert.KernelIdeal.gather_S50000x128_S1650688x1_S1650688x128_1_0_n_n_0_1_1128.offCoord j 1 = (j 1).val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

theorem gatherR128 (h : Cert.ReferenceIdeal.S50000x128.Idx → EReal) (idx : IVec Cert.ReferenceIdeal.S1650000x1 32) (j : Cert.ReferenceIdeal.S1650000x128.Idx) :
    Host.gather Cert.ReferenceIdeal.gather_S50000x128_S1650000x1_S1650000x128_1_0_n_n_0_1_1128 h idx j
      = h (ix2 (Cert.GCN.rowClamp 50000 (by norm_num) (idx (ix2 (j 0) 0))) (j 1)) := by
  -- both sides read `h`; it remains to see the operand index is `(clamp, col)`, axis by axis
  unfold Host.gather
  congr 1
  funext a
  refine Fin.ext ?_
  match a with
  | ⟨0, _⟩ =>
    -- axis 0 (collapsed, in the start index map): the clamped start, no batching and no offset coordinate
    show Cert.ReferenceIdeal.gather_S50000x128_S1650000x1_S1650000x128_1_0_n_n_0_1_1128.start j idx 0
        + Cert.ReferenceIdeal.gather_S50000x128_S1650000x1_S1650000x128_1_0_n_n_0_1_1128.batchCoord j 0
        + Cert.ReferenceIdeal.gather_S50000x128_S1650000x1_S1650000x128_1_0_n_n_0_1_1128.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S50000x128_S1650000x1_S1650000x128_1_0_n_n_0_1_1128.startIndexMap
      from List.mem_singleton.mpr rfl)]
    -- the start index is read at `(j 0, 0)` of the start indices
    have hsi : Cert.ReferenceIdeal.gather_S50000x128_S1650000x1_S1650000x128_1_0_n_n_0_1_1128.siIdx j
        ⟨List.idxOf (0 : Fin 2) Cert.ReferenceIdeal.gather_S50000x128_S1650000x1_S1650000x128_1_0_n_n_0_1_1128.startIndexMap,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 (the offset axis, not in the start index map): start 0, no batching, offset coordinate `j 1`
    show Cert.ReferenceIdeal.gather_S50000x128_S1650000x1_S1650000x128_1_0_n_n_0_1_1128.start j idx 1
        + Cert.ReferenceIdeal.gather_S50000x128_S1650000x1_S1650000x128_1_0_n_n_0_1_1128.batchCoord j 1
        + Cert.ReferenceIdeal.gather_S50000x128_S1650000x1_S1650000x128_1_0_n_n_0_1_1128.offCoord j 1 = (j 1).val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

theorem gatherK2 (h : Cert.KernelIdeal.S50000x2.Idx → EReal) (idx : IVec Cert.KernelIdeal.S1650688x1 32) (j : Cert.KernelIdeal.S1650688x2.Idx) :
    Host.gather Cert.KernelIdeal.gather_S50000x2_S1650688x1_S1650688x2_1_0_n_n_0_1_12 h idx j
      = h (ix2 (Cert.GCN.rowClamp 50000 (by norm_num) (idx (ix2 (j 0) 0))) (j 1)) := by
  -- both sides read `h`; it remains to see the operand index is `(clamp, col)`, axis by axis
  unfold Host.gather
  congr 1
  funext a
  refine Fin.ext ?_
  match a with
  | ⟨0, _⟩ =>
    -- axis 0 (collapsed, in the start index map): the clamped start, no batching and no offset coordinate
    show Cert.KernelIdeal.gather_S50000x2_S1650688x1_S1650688x2_1_0_n_n_0_1_12.start j idx 0
        + Cert.KernelIdeal.gather_S50000x2_S1650688x1_S1650688x2_1_0_n_n_0_1_12.batchCoord j 0
        + Cert.KernelIdeal.gather_S50000x2_S1650688x1_S1650688x2_1_0_n_n_0_1_12.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S50000x2_S1650688x1_S1650688x2_1_0_n_n_0_1_12.startIndexMap
      from List.mem_singleton.mpr rfl)]
    -- the start index is read at `(j 0, 0)` of the start indices
    have hsi : Cert.KernelIdeal.gather_S50000x2_S1650688x1_S1650688x2_1_0_n_n_0_1_12.siIdx j
        ⟨List.idxOf (0 : Fin 2) Cert.KernelIdeal.gather_S50000x2_S1650688x1_S1650688x2_1_0_n_n_0_1_12.startIndexMap,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 (the offset axis, not in the start index map): start 0, no batching, offset coordinate `j 1`
    show Cert.KernelIdeal.gather_S50000x2_S1650688x1_S1650688x2_1_0_n_n_0_1_12.start j idx 1
        + Cert.KernelIdeal.gather_S50000x2_S1650688x1_S1650688x2_1_0_n_n_0_1_12.batchCoord j 1
        + Cert.KernelIdeal.gather_S50000x2_S1650688x1_S1650688x2_1_0_n_n_0_1_12.offCoord j 1 = (j 1).val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

theorem gatherR2 (h : Cert.ReferenceIdeal.S50000x2.Idx → EReal) (idx : IVec Cert.ReferenceIdeal.S1650000x1 32) (j : Cert.ReferenceIdeal.S1650000x2.Idx) :
    Host.gather Cert.ReferenceIdeal.gather_S50000x2_S1650000x1_S1650000x2_1_0_n_n_0_1_12 h idx j
      = h (ix2 (Cert.GCN.rowClamp 50000 (by norm_num) (idx (ix2 (j 0) 0))) (j 1)) := by
  -- both sides read `h`; it remains to see the operand index is `(clamp, col)`, axis by axis
  unfold Host.gather
  congr 1
  funext a
  refine Fin.ext ?_
  match a with
  | ⟨0, _⟩ =>
    -- axis 0 (collapsed, in the start index map): the clamped start, no batching and no offset coordinate
    show Cert.ReferenceIdeal.gather_S50000x2_S1650000x1_S1650000x2_1_0_n_n_0_1_12.start j idx 0
        + Cert.ReferenceIdeal.gather_S50000x2_S1650000x1_S1650000x2_1_0_n_n_0_1_12.batchCoord j 0
        + Cert.ReferenceIdeal.gather_S50000x2_S1650000x1_S1650000x2_1_0_n_n_0_1_12.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S50000x2_S1650000x1_S1650000x2_1_0_n_n_0_1_12.startIndexMap
      from List.mem_singleton.mpr rfl)]
    -- the start index is read at `(j 0, 0)` of the start indices
    have hsi : Cert.ReferenceIdeal.gather_S50000x2_S1650000x1_S1650000x2_1_0_n_n_0_1_12.siIdx j
        ⟨List.idxOf (0 : Fin 2) Cert.ReferenceIdeal.gather_S50000x2_S1650000x1_S1650000x2_1_0_n_n_0_1_12.startIndexMap,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 (the offset axis, not in the start index map): start 0, no batching, offset coordinate `j 1`
    show Cert.ReferenceIdeal.gather_S50000x2_S1650000x1_S1650000x2_1_0_n_n_0_1_12.start j idx 1
        + Cert.ReferenceIdeal.gather_S50000x2_S1650000x1_S1650000x2_1_0_n_n_0_1_12.batchCoord j 1
        + Cert.ReferenceIdeal.gather_S50000x2_S1650000x1_S1650000x2_1_0_n_n_0_1_12.offCoord j 1 = (j 1).val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

end Cert.GCN.Edges

end
-- ==== Proof.Pad.lean ====
/-
  Padding the edge list changes no node's sum. The kernel pads the 1,650,000 edges to 1,650,688 (a multiple of its edge
  tile) with edges `0 → 0` of weight `0`: a padded edge's message is `h[0] · 0 = 0` on the extended reals, whatever
  `h[0]` is, and a sum is unchanged by zero terms; on the first 1,650,000 edges the padded lists ARE the plain ones, so
  source row, target row and weight agree there. Hence the scatter-add over the padded messages is the scatter-add over
  the plain ones — at feature width 128 (the first layer) and 2 (the second).
-/
import proofs.«130536_j28544352649461_1_alg».proof.KernelIdeal
import proofs.«130536_j28544352649461_1_alg».proof.Proof.Gen.KernelIdeal
import proofs.«130536_j28544352649461_1_alg».proof.ReferenceIdeal
import proofs.«130536_j28544352649461_1_alg».proof.Proof.Gen.ReferenceIdeal
import proofs.«130536_j28544352649461_1_alg».proof.Proof.Spec
import proofs.«130536_j28544352649461_1_alg».proof.Proof.EdgeSpec
import proofs.«130536_j28544352649461_1_alg».proof.Proof.ScatterIdx
import proofs.«130536_j28544352649461_1_alg».proof.Proof.GatherIdx
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.GCN.Edges

open Idealize.ShloMosaic Idealize.ShloMosaic.ValueIdx

/-- An index list followed by 688 zeros. -/
def padI (a : IVec Cert.KernelIdeal.S1650000 32) : IVec Cert.KernelIdeal.S1650688 32 :=
  concatenate Cert.KernelIdeal.S1650688 0 [⟨Cert.KernelIdeal.S1650000, a⟩, ⟨Cert.KernelIdeal.S688, broadcastInDim Cert.KernelIdeal.S688 ![] Cert.KernelIdeal.Gen.bcast_S_S688 (constantI Cert.KernelIdeal.S_ 32 0#32)⟩] Cert.KernelIdeal.Gen.concatenates_S1650000_S688_S1650688_d0

/-- A weight list followed by 688 zeros, as one column. -/
def padF (n : FVec Ideal Cert.KernelIdeal.S1650000 .f32) : FVec Ideal Cert.KernelIdeal.S1650688x1 .f32 :=
  shapeCast _ (concatenate Cert.KernelIdeal.S1650688 0 [⟨Cert.KernelIdeal.S1650000, n⟩, ⟨Cert.KernelIdeal.S688, broadcastInDim Cert.KernelIdeal.S688 ![] Cert.KernelIdeal.Gen.bcast_S_S688 (constant (F := Ideal) Cert.KernelIdeal.S_ .f32 0x00000000#32)⟩] Cert.KernelIdeal.Gen.concatenates_S1650000_S688_S1650688_d0) Cert.KernelIdeal.Gen.shapeCasts_S1650688_S1650688x1

/-- A negative index counted from the end (`i < 0 ↦ i + 50000`), over the padded list. -/
def nrmP (idx : IVec Cert.KernelIdeal.S1650688 32) : IVec Cert.KernelIdeal.S1650688 32 :=
  select (cmpi .slt idx (broadcastInDim Cert.KernelIdeal.S1650688 ![] Cert.KernelIdeal.Gen.bcast_S_S1650688 (constantI Cert.KernelIdeal.S_ 32 0#32)))
    (addi idx (broadcastInDim Cert.KernelIdeal.S1650688 ![] Cert.KernelIdeal.Gen.bcast_S_S1650688 (constantI Cert.KernelIdeal.S_ 32 50000#32))) idx

/-- The same over the plain list. -/
def nrmR (idx : IVec Cert.ReferenceIdeal.S1650000 32) : IVec Cert.ReferenceIdeal.S1650000 32 :=
  select (cmpi .slt idx (broadcastInDim Cert.ReferenceIdeal.S1650000 ![] Cert.ReferenceIdeal.Gen.bcast_S_S1650000 (constantI Cert.ReferenceIdeal.S_ 32 0#32)))
    (addi idx (broadcastInDim Cert.ReferenceIdeal.S1650000 ![] Cert.ReferenceIdeal.Gen.bcast_S_S1650000 (constantI Cert.ReferenceIdeal.S_ 32 50000#32))) idx

/-! ## A sum over a padded index type

An injective map of the plain indices into the padded ones, a summand that vanishes off its range and agrees on it, and
filters that agree on it: the two filtered sums are equal. -/

theorem sum_pad {J J' M : Type} [Fintype J] [Fintype J'] [AddCommMonoid M]
    (ι : J → J') (hι : Function.Injective ι) (f : J → M) (f' : J' → M)
    (p : J → Prop) (p' : J' → Prop) [DecidablePred p] [DecidablePred p']
    (hf : ∀ j, f' (ι j) = f j) (h0 : ∀ j', (∀ j, ι j ≠ j') → f' j' = 0) (hp : ∀ j, p' (ι j) ↔ p j) :
    ∑ j' ∈ Finset.univ.filter p', f' j' = ∑ j ∈ Finset.univ.filter p, f j := by
  classical
  have himg : ∑ j ∈ Finset.univ.filter p, f j = ∑ j' ∈ (Finset.univ.filter p).image ι, f' j' := by
    rw [Finset.sum_image (fun a _ b _ hab => hι hab)]
    exact Finset.sum_congr rfl (fun j _ => (hf j).symm)
  rw [himg]
  symm
  apply Finset.sum_subset
  · intro x hx
    obtain ⟨j, hj, rfl⟩ := Finset.mem_image.1 hx
    rw [Finset.mem_filter] at hj ⊢
    exact ⟨Finset.mem_univ _, (hp j).2 hj.2⟩
  · intro x hx hnot
    apply h0
    intro j hj
    subst hj
    apply hnot
    rw [Finset.mem_filter] at hx
    exact Finset.mem_image.2 ⟨j, Finset.mem_filter.2 ⟨Finset.mem_univ _, (hp j).1 hx.2⟩, rfl⟩

/-! ## The padded lists read at an index -/

/-- A plain edge number as a padded edge number. -/
def up (r : Fin 1650000) : Fin 1650688 := ⟨r.val, by have := r.isLt; omega⟩

theorem up_val (r : Fin 1650000) : (up r).val = r.val := rfl

/-- The padded index list on a plain edge is the plain list. -/
theorem padI_up (a : IVec Cert.KernelIdeal.S1650000 32) (r : Fin 1650000) : padI a (ix1 (up r)) = a (ix1 r) := by
  unfold padI
  exact concatenate_pair_apply_left (s₁ := Cert.KernelIdeal.S1650000) (s₂ := Cert.KernelIdeal.S688) 0 _ _ _ (ix1 (up r)) rfl (ix1 r)
    (fun b => by match b with | ⟨0, _⟩ => rfl)

/-- The padded weight column on a plain edge is the plain weight. -/
theorem padF_up (n : FVec Ideal Cert.KernelIdeal.S1650000 .f32) (r : Fin 1650000) : padF n (ix2 (up r) 0) = n (ix1 r) := by
  unfold padF
  rw [shapeCast_apply _ _ (ix2 (up r) 0) (ix1 (up r)) (by rw [Shape.rowMajor_val_one, Shape.rowMajor_val_two]; show (up r).val = (up r).val * 1 + 0; omega)]
  exact concatenate_pair_apply_left (s₁ := Cert.KernelIdeal.S1650000) (s₂ := Cert.KernelIdeal.S688) 0 _ _ _ (ix1 (up r)) rfl (ix1 r)
    (fun b => by match b with | ⟨0, _⟩ => rfl)

/-- The padded weight column on a padding edge is zero. -/
theorem padF_tail (n : FVec Ideal Cert.KernelIdeal.S1650000 .f32) (r : Fin 1650688) (hr : 1650000 ≤ r.val) : padF n (ix2 r 0) = 0 := by
  unfold padF
  rw [shapeCast_apply _ _ (ix2 r 0) (ix1 r) (by rw [Shape.rowMajor_val_one, Shape.rowMajor_val_two]; show r.val = r.val * 1 + 0; omega)]
  rw [concatenate_pair_apply_right (s₁ := Cert.KernelIdeal.S1650000) (s₂ := Cert.KernelIdeal.S688) 0 _ _ _ (ix1 r) rfl rfl
    (ix1 (⟨r.val - 1650000, by have := r.isLt; omega⟩ : Fin 688))
    (fun b hb => by match b with | ⟨0, _⟩ => exact absurd rfl hb)
    (by show r.val - 1650000 + 1650000 = r.val; omega)]
  rw [broadcastInDim_scalar_apply, constant_apply, Ideal.ofBits_zero_f32]

/-- A signed word counted from the end when negative. -/
def nrm1 (w : BitVec 32) : BitVec 32 := Scalar.select (IntOp.cmpi .slt w 0#32) (IntOp.addi w 50000#32) w

theorem nrmP_apply (idx : IVec Cert.KernelIdeal.S1650688 32) (i : Cert.KernelIdeal.S1650688.Idx) : nrmP idx i = nrm1 (idx i) := rfl

theorem nrmR_apply (idx : IVec Cert.ReferenceIdeal.S1650000 32) (i : Cert.ReferenceIdeal.S1650000.Idx) : nrmR idx i = nrm1 (idx i) := rfl

/-- A list broadcast to one column reads the list at the row. -/
theorem bcolK {α : Type} (x : Cert.KernelIdeal.S1650688.Idx → α) (r : Fin 1650688) :
    broadcastInDim Cert.KernelIdeal.S1650688x1 ![0] Cert.KernelIdeal.Gen.bcast_S1650688_S1650688x1_0 x (ix2 r 0) = x (ix1 r) :=
  broadcastInDim_apply _ _ x (ix2 r 0) (ix1 r) (fun a => by match a with | ⟨0, _⟩ => exact (if_neg (show ¬((1650688 : Nat) = 1) by decide)).symm)

theorem bcolR {α : Type} (x : Cert.ReferenceIdeal.S1650000.Idx → α) (r : Fin 1650000) :
    broadcastInDim Cert.ReferenceIdeal.S1650000x1 ![0] Cert.ReferenceIdeal.Gen.bcast_S1650000_S1650000x1_0 x (ix2 r 0) = x (ix1 r) :=
  broadcastInDim_apply _ _ x (ix2 r 0) (ix1 r) (fun a => by match a with | ⟨0, _⟩ => exact (if_neg (show ¬((1650000 : Nat) = 1) by decide)).symm)

theorem bwideR128 {α : Type} (x : Cert.ReferenceIdeal.S1650000x1.Idx → α) (r : Fin 1650000) (col : Fin 128) :
    broadcastInDim Cert.ReferenceIdeal.S1650000x128 ![0, 1] Cert.ReferenceIdeal.Gen.bcast_S1650000x1_S1650000x128_0_1 x (ix2 r col) = x (ix2 r 0) :=
  broadcastInDim_apply _ _ x (ix2 r col) (ix2 r 0) (fun a => by
    match a with
    | ⟨0, _⟩ => exact (if_neg (show ¬((1650000 : Nat) = 1) by decide)).symm
    | ⟨1, _⟩ => exact (if_pos rfl).symm)

theorem bwideR2 {α : Type} (x : Cert.ReferenceIdeal.S1650000x1.Idx → α) (r : Fin 1650000) (col : Fin 2) :
    broadcastInDim Cert.ReferenceIdeal.S1650000x2 ![0, 1] Cert.ReferenceIdeal.Gen.bcast_S1650000x1_S1650000x2_0_1 x (ix2 r col) = x (ix2 r 0) :=
  broadcastInDim_apply _ _ x (ix2 r col) (ix2 r 0) (fun a => by
    match a with
    | ⟨0, _⟩ => exact (if_neg (show ¬((1650000 : Nat) = 1) by decide)).symm
    | ⟨1, _⟩ => exact (if_pos rfl).symm)

/-! ## The scatter-add as a sum, and the padded sum against the plain one -/

/-- The ideal scatter-add at an element: the operand element plus the updates that land there. -/
theorem scatterAdd_apply {s si su : Shape} {φ : FTy} {w : Nat} (d : ScatterDims s si su) (x : FVec Ideal s φ) (idx : IVec si w)
    (upd : FVec Ideal su φ) (i : s.Idx) :
    Host.scatterAdd d x idx upd i = x i + ∑ j ∈ Finset.univ.filter (fun j => d.resultIdx? j idx = some i), upd j := rfl

/-- A plain update index as a padded update index: the same edge, the same column. -/
def emb (C : Nat) (j : (⟨2, ![1650000, C]⟩ : Shape).Idx) : (⟨2, ![1650688, C]⟩ : Shape).Idx := ix2 (up (j 0)) (j 1)

theorem emb_ix2 (C : Nat) (r : Fin 1650000) (c : Fin C) : emb C (ix2 r c) = ix2 (up r) c := rfl

theorem emb_inj (C : Nat) : Function.Injective (emb C) := by
  intro j j' h
  obtain ⟨r, c, rfl⟩ : ∃ (r : Fin 1650000) (c : Fin C), j = ix2 r c := ⟨j 0, j 1, eq_ix2 j⟩
  obtain ⟨r', c', rfl⟩ : ∃ (r' : Fin 1650000) (c' : Fin C), j' = ix2 r' c' := ⟨j' 0, j' 1, eq_ix2 j'⟩
  have h0 : up r = up r' := congrFun h 0
  have h1 : c = c' := congrFun h 1
  have hv : (up r).val = (up r').val := congrArg Fin.val h0
  have hr : r = r' := Fin.ext hv
  subst hr; subst h1; rfl

/-- The padded sum is the plain sum, when targets and updates agree on the plain edges and the padding edges' updates vanish. -/
theorem agg_core (C : Nat) (i : (⟨2, ![50000, C]⟩ : Shape).Idx)
    (tK : (⟨2, ![1650688, C]⟩ : Shape).Idx → Option ((⟨2, ![50000, C]⟩ : Shape).Idx))
    (tR : (⟨2, ![1650000, C]⟩ : Shape).Idx → Option ((⟨2, ![50000, C]⟩ : Shape).Idx))
    (uK : (⟨2, ![1650688, C]⟩ : Shape).Idx → EReal) (uR : (⟨2, ![1650000, C]⟩ : Shape).Idx → EReal)
    [DecidablePred fun j => tK j = some i] [DecidablePred fun j => tR j = some i]
    (ht : ∀ (r : Fin 1650000) (c : Fin C), tK (ix2 (up r) c) = tR (ix2 r c))
    (hu : ∀ (r : Fin 1650000) (c : Fin C), uK (ix2 (up r) c) = uR (ix2 r c))
    (h0 : ∀ (r : Fin 1650688) (c : Fin C), 1650000 ≤ r.val → uK (ix2 r c) = 0) :
    ∑ j ∈ Finset.univ.filter (fun j => tK j = some i), uK j = ∑ j ∈ Finset.univ.filter (fun j => tR j = some i), uR j := by
  refine sum_pad (emb C) (emb_inj C) uR uK _ _ ?_ ?_ ?_
  · intro j
    obtain ⟨r, c, rfl⟩ : ∃ (r : Fin 1650000) (c : Fin C), j = ix2 r c := ⟨j 0, j 1, eq_ix2 j⟩
    rw [emb_ix2]; exact hu r c
  · intro j' hne
    obtain ⟨r, c, rfl⟩ : ∃ (r : Fin 1650688) (c : Fin C), j' = ix2 r c := ⟨j' 0, j' 1, eq_ix2 j'⟩
    by_cases hr : r.val < 1650000
    · exact absurd (emb_ix2 C ⟨r.val, hr⟩ c) (hne _)
    · exact h0 r c (by omega)
  · intro j
    obtain ⟨r, c, rfl⟩ : ∃ (r : Fin 1650000) (c : Fin C), j = ix2 r c := ⟨j 0, j 1, eq_ix2 j⟩
    rw [emb_ix2, ht r c]

/-- A row scaling read at a row and a column. -/
theorem scale_ix2 (E C : Nat) (g : Cert.GCN.Mat E C) (n : Cert.GCN.Mat E 1) (r : Fin E) (c : Fin C) :
    Cert.GCN.scale E C g n (ix2 r c) = g (ix2 r c) * n (ix2 r 0) := rfl

theorem agg128 (h : FVec Ideal Cert.KernelIdeal.S50000x128 .f32) (s d : IVec Cert.KernelIdeal.S1650000 32) (n : FVec Ideal Cert.KernelIdeal.S1650000 .f32) :
    Host.scatterAdd Cert.KernelIdeal.scatter_S50000x128_S1650688x1_S1650688x128_1_0_0_1
        (broadcastInDim Cert.KernelIdeal.S50000x128 ![] Cert.KernelIdeal.Gen.bcast_S_S50000x128 (constant (F := Ideal) Cert.KernelIdeal.S_ .f32 0x00000000#32))
        (broadcastInDim Cert.KernelIdeal.S1650688x1 ![0] Cert.KernelIdeal.Gen.bcast_S1650688_S1650688x1_0 (padI d))
        (Cert.GCN.scale 1650688 128
          (Host.gather Cert.KernelIdeal.gather_S50000x128_S1650688x1_S1650688x128_1_0_n_n_0_1_1128 h
            (broadcastInDim Cert.KernelIdeal.S1650688x1 ![0] Cert.KernelIdeal.Gen.bcast_S1650688_S1650688x1_0 (nrmP (padI s))))
          (padF n))
      = Host.scatterAdd Cert.ReferenceIdeal.scatter_S50000x128_S1650000x1_S1650000x128_1_0_0_1
        (broadcastInDim Cert.ReferenceIdeal.S50000x128 ![] Cert.ReferenceIdeal.Gen.bcast_S_S50000x128 (constant (F := Ideal) Cert.ReferenceIdeal.S_ .f32 0x00000000#32))
        (broadcastInDim Cert.ReferenceIdeal.S1650000x1 ![0] Cert.ReferenceIdeal.Gen.bcast_S1650000_S1650000x1_0 d)
        (mulf
          (Host.gather Cert.ReferenceIdeal.gather_S50000x128_S1650000x1_S1650000x128_1_0_n_n_0_1_1128 h
            (broadcastInDim Cert.ReferenceIdeal.S1650000x1 ![0] Cert.ReferenceIdeal.Gen.bcast_S1650000_S1650000x1_0 (nrmR s)))
          (broadcastInDim Cert.ReferenceIdeal.S1650000x128 ![0, 1] Cert.ReferenceIdeal.Gen.bcast_S1650000x1_S1650000x128_0_1
            (broadcastInDim Cert.ReferenceIdeal.S1650000x1 ![0] Cert.ReferenceIdeal.Gen.bcast_S1650000_S1650000x1_0 n))) := by
  funext i
  rw [scatterAdd_apply, scatterAdd_apply]
  refine congrArg₂ (· + ·) ?_ ?_
  · rw [broadcastInDim_scalar_apply]
  · refine agg_core 128 i _ _ _ _ ?_ ?_ ?_
    · intro r c
      rw [scatterK128, scatterR128, bcolK, bcolR, padI_up]
    · intro r c
      rw [scale_ix2, mulf_apply, gatherK128, gatherR128, bcolK, bcolR, padF_up, bwideR128, bcolR, nrmP_apply, nrmR_apply, padI_up]
    · intro r c hr
      rw [scale_ix2, padF_tail n r hr, mul_zero]

theorem agg2 (h : FVec Ideal Cert.KernelIdeal.S50000x2 .f32) (s d : IVec Cert.KernelIdeal.S1650000 32) (n : FVec Ideal Cert.KernelIdeal.S1650000 .f32) :
    Host.scatterAdd Cert.KernelIdeal.scatter_S50000x2_S1650688x1_S1650688x2_1_0_0_1
        (broadcastInDim Cert.KernelIdeal.S50000x2 ![] Cert.KernelIdeal.Gen.bcast_S_S50000x2 (constant (F := Ideal) Cert.KernelIdeal.S_ .f32 0x00000000#32))
        (broadcastInDim Cert.KernelIdeal.S1650688x1 ![0] Cert.KernelIdeal.Gen.bcast_S1650688_S1650688x1_0 (padI d))
        (Cert.GCN.scale 1650688 2
          (Host.gather Cert.KernelIdeal.gather_S50000x2_S1650688x1_S1650688x2_1_0_n_n_0_1_12 h
            (broadcastInDim Cert.KernelIdeal.S1650688x1 ![0] Cert.KernelIdeal.Gen.bcast_S1650688_S1650688x1_0 (nrmP (padI s))))
          (padF n))
      = Host.scatterAdd Cert.ReferenceIdeal.scatter_S50000x2_S1650000x1_S1650000x2_1_0_0_1
        (broadcastInDim Cert.ReferenceIdeal.S50000x2 ![] Cert.ReferenceIdeal.Gen.bcast_S_S50000x2 (constant (F := Ideal) Cert.ReferenceIdeal.S_ .f32 0x00000000#32))
        (broadcastInDim Cert.ReferenceIdeal.S1650000x1 ![0] Cert.ReferenceIdeal.Gen.bcast_S1650000_S1650000x1_0 d)
        (mulf
          (Host.gather Cert.ReferenceIdeal.gather_S50000x2_S1650000x1_S1650000x2_1_0_n_n_0_1_12 h
            (broadcastInDim Cert.ReferenceIdeal.S1650000x1 ![0] Cert.ReferenceIdeal.Gen.bcast_S1650000_S1650000x1_0 (nrmR s)))
          (broadcastInDim Cert.ReferenceIdeal.S1650000x2 ![0, 1] Cert.ReferenceIdeal.Gen.bcast_S1650000x1_S1650000x2_0_1
            (broadcastInDim Cert.ReferenceIdeal.S1650000x1 ![0] Cert.ReferenceIdeal.Gen.bcast_S1650000_S1650000x1_0 n))) := by
  funext i
  rw [scatterAdd_apply, scatterAdd_apply]
  refine congrArg₂ (· + ·) ?_ ?_
  · rw [broadcastInDim_scalar_apply]
  · refine agg_core 2 i _ _ _ _ ?_ ?_ ?_
    · intro r c
      rw [scatterK2, scatterR2, bcolK, bcolR, padI_up]
    · intro r c
      rw [scale_ix2, mulf_apply, gatherK2, gatherR2, bcolK, bcolR, padF_up, bwideR2, bcolR, nrmP_apply, nrmR_apply, padI_up]
    · intro r c hr
      rw [scale_ix2, padF_tail n r hr, mul_zero]

end Cert.GCN.Edges

end
-- ==== Proof.RefBridge.lean ====
/-
  The reference's dense stages, index by index. Its two `dot_general`s are the plain sums over the contracted axis; its
  bias-and-positive-part (two broadcasts of the bias, an add, a maximum with a broadcast zero) is `max (a + b) 0`.
  The kernel's one-row bias array is the same bias reshaped, which reads the same entry.
-/
import proofs.«130536_j28544352649461_1_alg».proof.KernelIdeal
import proofs.«130536_j28544352649461_1_alg».proof.Proof.Gen.KernelIdeal
import proofs.«130536_j28544352649461_1_alg».proof.Proof.RefReadP
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GCN.Ref

open Idealize.ShloMosaic Idealize.ShloMosaic.ValueIdx Cert.ReferenceIdeal.Read

theorem ref_mm1 (x : FVec Ideal Cert.ReferenceIdeal.S50000x768 .f32) (w : FVec Ideal Cert.ReferenceIdeal.S768x128 .f32) :
    Host.dotGeneral Cert.ReferenceIdeal.dot_S50000x768_S768x128_S50000x128_1_0_0_1_n_n none x w = Cert.GCN.mm 50000 768 128 x w := by
  funext i
  have h := val_main_v7_apply x w i
  unfold val_main_v7 at h
  rw [h]
  unfold Cert.GCN.mm
  refine Finset.sum_congr rfl fun k _ => ?_
  -- the composed operand indices are (row, k) and (k, column)
  have el : lidx_main_v7 i k = ix2 (i 0) k :=
    funext fun a => Fin.ext (by match a with | ⟨0, _⟩ => rfl | ⟨1, _⟩ => rfl)
  have er : ridx_main_v7 i k = ix2 k (i 1) :=
    funext fun a => Fin.ext (by match a with | ⟨0, _⟩ => rfl | ⟨1, _⟩ => rfl)
  rw [el, er]
  rfl

theorem ref_mm2 (x : FVec Ideal Cert.ReferenceIdeal.S50000x128 .f32) (w : FVec Ideal Cert.ReferenceIdeal.S128x2 .f32) :
    Host.dotGeneral Cert.ReferenceIdeal.dot_S50000x128_S128x2_S50000x2_1_0_0_1_n_n none x w = Cert.GCN.mm 50000 128 2 x w := by
  funext i
  simp only [Host.dotGeneral]
  -- over the extended reals a dot_general is the sum over the contracted axis
  rw [Ideal.dotGeneral_apply, ← Equiv.sum_comp (ValueIdx.contrEquiv1 Cert.ReferenceIdeal.dot_S50000x128_S128x2_S50000x2_1_0_0_1_n_n 128 rfl rfl).symm]
  unfold Cert.GCN.mm
  refine Finset.sum_congr rfl fun k _ => ?_
  have hk := ValueIdx.contrEquiv1_symm_val Cert.ReferenceIdeal.dot_S50000x128_S128x2_S50000x2_1_0_0_1_n_n 128 rfl rfl k
  have el : Cert.ReferenceIdeal.dot_S50000x128_S128x2_S50000x2_1_0_0_1_n_n.lhsIdx i ((ValueIdx.contrEquiv1 Cert.ReferenceIdeal.dot_S50000x128_S128x2_S50000x2_1_0_0_1_n_n 128 rfl rfl).symm k) = ix2 (i 0) k :=
    funext fun a => Fin.ext (by
      match a with
      | ⟨0, _⟩ => exact lhs_main_v48_0 _ _
      | ⟨1, _⟩ => exact (lhs_main_v48_1 _ _).trans hk)
  have er : Cert.ReferenceIdeal.dot_S50000x128_S128x2_S50000x2_1_0_0_1_n_n.rhsIdx i ((ValueIdx.contrEquiv1 Cert.ReferenceIdeal.dot_S50000x128_S128x2_S50000x2_1_0_0_1_n_n 128 rfl rfl).symm k) = ix2 k (i 1) :=
    funext fun a => Fin.ext (by
      match a with
      | ⟨0, _⟩ => exact (rhs_main_v48_0 _ _).trans hk
      | ⟨1, _⟩ => exact rhs_main_v48_1 _ _)
  rw [el, er]
  rfl

theorem ref_relu (x0 : (⟨Cert.ReferenceIdeal.S50000x768, .f32⟩ : BufTy).Contents (Elt Ideal)) (x1 : (⟨Cert.ReferenceIdeal.S2x1600000, .i32⟩ : BufTy).Contents (Elt Ideal)) (x2 : (⟨Cert.ReferenceIdeal.S768x128, .f32⟩ : BufTy).Contents (Elt Ideal)) (x3 : (⟨Cert.ReferenceIdeal.S128, .f32⟩ : BufTy).Contents (Elt Ideal)) :
    val_main_v47 (F := Ideal) x0 x1 x2 x3
      = Cert.GCN.biasRelu 50000 128 (val_main_v43 (F := Ideal) x0 x1 x2) (shapeCast Cert.KernelIdeal.S1x128 x3 Cert.KernelIdeal.Gen.shapeCasts_S128_S1x128) := by
  funext i
  obtain ⟨p, q, rfl⟩ : ∃ p q, i = ix2 p q := ⟨i 0, i 1, eq_ix2 i⟩
  rw [val_main_v47_apply, val_main_v46_apply, val_main_v45_apply, val_main_v44_apply, val_main_call1_v0_apply,
    val_main_call1_cst_apply]
  -- the two broadcasts of the bias read its entry at the column
  have e1 : idx_main_v44 (idx_main_v45 (ix2 p q)) = ix1 q :=
    funext fun a => Fin.ext (by match a with | ⟨0, _⟩ => rfl)
  rw [e1]
  show _ = max (val_main_v43 (F := Ideal) x0 x1 x2 (ix2 p q)
    + shapeCast (⟨2, ![1, 128]⟩ : Shape) x3 Cert.KernelIdeal.Gen.shapeCasts_S128_S1x128 (ix2 (0 : Fin 1) q)) 0
  rw [shapeCast_a_1a_apply]
  simp only [Ideal.maximumf_def, Ideal.addf_def, Ideal.ofBits_def, Ideal.ofBits_zero_f32]

end Cert.GCN.Ref

end
-- ==== Proof.RefSoftmax.lean ====
/-
  The reference's last stretch, index by index: the second layer's bias (two broadcasts and an add), each row's maximum
  (a reduce from `−∞`, then once more the maximum with a broadcast `−∞`), the subtraction, the exponential, each row's
  sum and the division — the softmax of `a + b` along the row. The kernel's one-row bias array is the same bias
  reshaped, which reads the same entry.
-/
import proofs.«130536_j28544352649461_1_alg».proof.KernelIdeal
import proofs.«130536_j28544352649461_1_alg».proof.Proof.Gen.KernelIdeal
import proofs.«130536_j28544352649461_1_alg».proof.Proof.RefReadP
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GCN.Ref

open Idealize.ShloMosaic Idealize.ShloMosaic.ValueIdx Cert.ReferenceIdeal.Read

/-- `−∞`'s f32 pattern is `⊥`. -/
private theorem ofBits_negInf : Ideal.ofBits .f32 0xFF800000#32 = ⊥ := by simp [Ideal.ofBits, Ideal.ieee]

/-- A fold's operation replaced by an equal one. -/
private theorem fold_op_congr {α β : Type} (op op' : β → β → β) [Std.Commutative op] [Std.Associative op] [Std.Commutative op']
    [Std.Associative op'] (h : op = op') (b : β) (f : α → β) (s : Finset α) : s.fold op b f = s.fold op' b f := by
  subst h; rfl

/-- At the extended reals the float maximum is `max`. -/
private theorem maximumf_eq_max : (FloatOps.maximumf (F := Ideal) (φ := .f32)) = (max : EReal → EReal → EReal) := rfl

/-- A `stablehlo.reduce` with a maximum body along the rows of an `[M, C]` array, read at row `r`: the fold of `max` from
    the initial value over the row's coordinates (any extents; the inserted index is `(r, k)`). -/
private theorem reduce_max_row {M C : Nat} (z : (⟨2, ![M, C]⟩ : Shape).Idx → EReal) (init : (⟨0, ![]⟩ : Shape).Idx → EReal)
    (h' : (⟨2, ![M, C]⟩ : Shape).ReducesTo [1] ⟨1, ![M]⟩) (h : (⟨2, ![M, C]⟩ : Shape).Reduces [1] ⟨1, ![M]⟩)
    (hu : 0 < (⟨0, ![]⟩ : Shape).numel) (r : Fin M) :
    Host.reduce (FloatOps.maximumf (F := Ideal) (φ := .f32)) z init h' hu (ix1 r)
      = (Finset.univ : Finset (Fin C)).fold max (init (Shape.Idx.first hu)) (fun k => z (ix2 r k)) := by
  refine (Host.reduce_eq_fold_single (FloatOps.maximumf (F := Ideal) (φ := .f32)) z init h' h hu (ix1 r)).trans ?_
  refine (fold_op_congr _ _ maximumf_eq_max _ _ _).trans ?_
  have hl : ∀ k : Fin C, h.lift (ix1 r) k = ix2 r k := fun k =>
    funext fun a => Fin.ext (by match a with | ⟨0, _⟩ => rfl | ⟨1, _⟩ => rfl)
  exact congrArg (fun f : Fin C → EReal => (Finset.univ : Finset (Fin C)).fold max (init (Shape.Idx.first hu)) f)
    (funext fun k => congrArg z (hl k))

/-- The biased array: the scatter's result plus the bias, broadcast to one row and then down the rows; the one-row
    reshape of the bias reads the same entry. -/
private theorem ref_biased (x0 : (⟨Cert.ReferenceIdeal.S50000x768, .f32⟩ : BufTy).Contents (Elt Ideal)) (x1 : (⟨Cert.ReferenceIdeal.S2x1600000, .i32⟩ : BufTy).Contents (Elt Ideal)) (x2 : (⟨Cert.ReferenceIdeal.S768x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) :
    val_main_v87 (F := Ideal) x0 x1 x2 x3 x4 x5
      = Cert.GCN.biased 50000 2 (val_main_v84 (F := Ideal) x0 x1 x2 x3 x4) (shapeCast Cert.KernelIdeal.S1x2 x5 Cert.KernelIdeal.Gen.shapeCasts_S2_S1x2) := by
  funext i
  obtain ⟨p, q, rfl⟩ : ∃ p q, i = ix2 p q := ⟨i 0, i 1, eq_ix2 i⟩
  rw [val_main_v87_apply, val_main_v86_apply, val_main_v85_apply]
  unfold Cert.GCN.biased
  rw [Ideal.addf_def]
  refine congrArg (_ + ·) ?_
  refine Eq.trans ?_ (shapeCast_a_1a_apply x5 Cert.KernelIdeal.Gen.shapeCasts_S2_S1x2 0 q).symm
  exact congrArg x5 (funext fun a => Fin.ext (by match a with | ⟨0, _⟩ => rfl))

/-- Each row's maximum: the reduce from `−∞` along the row, then once more the maximum with `−∞`. -/
private theorem ref_rowMax (x0 : (⟨Cert.ReferenceIdeal.S50000x768, .f32⟩ : BufTy).Contents (Elt Ideal)) (x1 : (⟨Cert.ReferenceIdeal.S2x1600000, .i32⟩ : BufTy).Contents (Elt Ideal)) (x2 : (⟨Cert.ReferenceIdeal.S768x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (r : Fin 50000) :
    val_main_v90 (F := Ideal) x0 x1 x2 x3 x4 x5 (ix1 r)
      = Cert.GCN.rowMax 50000 2 (val_main_v87 (F := Ideal) x0 x1 x2 x3 x4 x5) r := by
  have hR : Cert.ReferenceIdeal.S50000x2.Reduces [1] Cert.ReferenceIdeal.S50000 := by decide
  rw [val_main_v90_apply, val_main_v89_apply, val_main_cst_21_apply]
  unfold val_main_v88
  generalize val_main_v87 (F := Ideal) x0 x1 x2 x3 x4 x5 = z
  unfold Cert.GCN.rowMax
  refine Eq.trans (congrArg (FloatOps.maximumf (F := Ideal) (φ := .f32) _)
    (reduce_max_row z _ Cert.ReferenceIdeal.Gen.reducesTo_S50000x2_S50000_d1 hR Cert.ReferenceIdeal.Gen.h_S_ r)) ?_
  rw [val_main_cst_20_apply, Ideal.maximumf_def, Ideal.ofBits_def, ofBits_negInf]

/-- The softmax of an array read at `(p, q)`. -/
private theorem softmaxRows_apply (M C : Nat) (z : Cert.GCN.Mat M C) (p : Fin M) (q : Fin C) :
    Cert.GCN.softmaxRows M C z (ix2 p q)
      = Ideal.div (Ideal.exp (z (ix2 p q) - Cert.GCN.rowMax M C z p))
          (∑ k : Fin C, Ideal.exp (z (ix2 p k) - Cert.GCN.rowMax M C z p)) := rfl

/-- The numerator at `(p, q)`: the exponential of the biased entry less its row's maximum (the maximum reaches the
    entry through two broadcasts). -/
private theorem ref_exp (x0 : (⟨Cert.ReferenceIdeal.S50000x768, .f32⟩ : BufTy).Contents (Elt Ideal)) (x1 : (⟨Cert.ReferenceIdeal.S2x1600000, .i32⟩ : BufTy).Contents (Elt Ideal)) (x2 : (⟨Cert.ReferenceIdeal.S768x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (p : Fin 50000) (q : Fin 2) :
    val_main_v94 (F := Ideal) x0 x1 x2 x3 x4 x5 (ix2 p q)
      = Ideal.exp (val_main_v87 (F := Ideal) x0 x1 x2 x3 x4 x5 (ix2 p q)
          - Cert.GCN.rowMax 50000 2 (val_main_v87 (F := Ideal) x0 x1 x2 x3 x4 x5) p) := by
  have e1 : idx_main_v91 (idx_main_v92 (ix2 p q)) = ix1 p :=
    funext fun a => Fin.ext (by match a with | ⟨0, _⟩ => rfl)
  rw [val_main_v94_apply, val_main_v93_apply, val_main_v92_apply, val_main_v91_apply, e1, ref_rowMax,
    Ideal.hostUnary_exp_def, Ideal.subf_def]

/-- The denominator at `(p, q)`: the row's sum of the numerators from zero (it reaches the entry through two
    broadcasts). -/
private theorem ref_sum (x0 : (⟨Cert.ReferenceIdeal.S50000x768, .f32⟩ : BufTy).Contents (Elt Ideal)) (x1 : (⟨Cert.ReferenceIdeal.S2x1600000, .i32⟩ : BufTy).Contents (Elt Ideal)) (x2 : (⟨Cert.ReferenceIdeal.S768x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) (p : Fin 50000) (q : Fin 2) :
    val_main_v97 (F := Ideal) x0 x1 x2 x3 x4 x5 (ix2 p q)
      = ∑ k : Fin 2, val_main_v94 (F := Ideal) x0 x1 x2 x3 x4 x5 (ix2 p k) := by
  have e2 : ∀ k : Fin 2, idx_main_v95 (idx_main_v96 (idx_main_v97 (ix2 p q))) k = ix2 p k := fun k =>
    funext fun a => Fin.ext (by match a with | ⟨0, _⟩ => rfl | ⟨1, _⟩ => rfl)
  rw [val_main_v97_apply, val_main_v96_apply, val_main_v95_apply, val_main_cst_22_apply, Ideal.ofBits_def,
    Ideal.ofBits_zero_f32, zero_add]
  exact Finset.sum_congr rfl fun k _ => congrArg (val_main_v94 (F := Ideal) x0 x1 x2 x3 x4 x5) (e2 k)

theorem ref_softmax (x0 : (⟨Cert.ReferenceIdeal.S50000x768, .f32⟩ : BufTy).Contents (Elt Ideal)) (x1 : (⟨Cert.ReferenceIdeal.S2x1600000, .i32⟩ : BufTy).Contents (Elt Ideal)) (x2 : (⟨Cert.ReferenceIdeal.S768x128, .f32⟩ : BufTy).Contents (Elt Ideal)) (x3 : (⟨Cert.ReferenceIdeal.S128, .f32⟩ : BufTy).Contents (Elt Ideal)) (x4 : (⟨Cert.ReferenceIdeal.S128x2, .f32⟩ : BufTy).Contents (Elt Ideal)) (x5 : (⟨Cert.ReferenceIdeal.S2, .f32⟩ : BufTy).Contents (Elt Ideal)) :
    val_main_v98 (F := Ideal) x0 x1 x2 x3 x4 x5
      = Cert.GCN.biasSoftmax 50000 2 (val_main_v84 (F := Ideal) x0 x1 x2 x3 x4) (shapeCast Cert.KernelIdeal.S1x2 x5 Cert.KernelIdeal.Gen.shapeCasts_S2_S1x2) := by
  funext i
  obtain ⟨p, q, rfl⟩ : ∃ p q, i = ix2 p q := ⟨i 0, i 1, eq_ix2 i⟩
  unfold Cert.GCN.biasSoftmax
  rw [← ref_biased x0 x1 x2 x3 x4 x5, softmaxRows_apply, val_main_v98_apply, ref_sum, Ideal.hostDivf_def]
  exact congrArg₂ Ideal.div (ref_exp x0 x1 x2 x3 x4 x5 p q) (Finset.sum_congr rfl fun k _ => ref_exp x0 x1 x2 x3 x4 x5 p k)

end Cert.GCN.Ref

end
-- ==== Proof.Pre.lean ====
/-
  What region 0 finds in the three arrays the host computes from the edge list before it, at any float instance.
  The kernel's program builds the source list, the target list and the symmetric edge weights
  `deg(src)^(-1/2) · deg(dst)^(-1/2)` (degrees counted by a scatter-add of ones over the targets, self loops included)
  by the same operations as the reference, and then appends 688 entries — index 0, index 0, weight 0 — so that the
  edge count is a multiple of its edge tile.
-/
import proofs.«130536_j28544352649461_1_alg».proof.Proof.Gen.KernelIdeal.Frame
import proofs.«130536_j28544352649461_1_alg».proof.Proof.RefReadP
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg) (c : Dev nD)

/-! The edge lists and edge weights when region 0 is entered, read through the three host stretches before it, at any
    float instance: the kernel's program computes them by the operations the reference computes them by, then pads. -/

set_option maxHeartbeats 2000000 in
/-- The padded source list: the reference's source list, then 688 zeros. -/
theorem W3_src_gen : W3 m ρ c (Proc.devRef .tc main_v31)
    = concatenate S1650688 0 [⟨S1650000, val_main_v3 (F := F) (m ((c.tc : Thread nD τ).loc main_arg1))⟩,
        ⟨S688, broadcastInDim S688 ![] bcast_S_S688 (constantI S_ 32 0#32)⟩] concatenates_S1650000_S688_S1650688_d0 := by
  show StableHlo.after hostOps0_2 (StableHlo.after hostOps0_1 (StableHlo.after hostOps0 (W0 m ρ c))) (Proc.devRef .tc main_v31) = _
  after_results_simp
  rfl

set_option maxHeartbeats 2000000 in
/-- The padded target list: the reference's target list, then 688 zeros. -/
theorem W3_dst_gen : W3 m ρ c (Proc.devRef .tc main_v33)
    = concatenate S1650688 0 [⟨S1650000, val_main_v6 (F := F) (m ((c.tc : Thread nD τ).loc main_arg1))⟩,
        ⟨S688, broadcastInDim S688 ![] bcast_S_S688 (constantI S_ 32 0#32)⟩] concatenates_S1650000_S688_S1650688_d0 := by
  show StableHlo.after hostOps0_2 (StableHlo.after hostOps0_1 (StableHlo.after hostOps0 (W0 m ρ c))) (Proc.devRef .tc main_v33) = _
  after_results_simp
  rfl

set_option maxHeartbeats 2000000 in
/-- The padded weight column: the reference's edge weights, then 688 zeros, as one column. -/
theorem W3_norm_gen : W3 m ρ c (Proc.devRef .tc main_v36)
    = shapeCast S1650688x1 (concatenate S1650688 0 [⟨S1650000, val_main_v30 (F := F) (m ((c.tc : Thread nD τ).loc main_arg1))⟩,
        ⟨S688, broadcastInDim S688 ![] bcast_S_S688 (constant (F := F) S_ .f32 0x00000000#32)⟩] concatenates_S1650000_S688_S1650688_d0)
        shapeCasts_S1650688_S1650688x1 := by
  show StableHlo.after hostOps0_2 (StableHlo.after hostOps0_1 (StableHlo.after hostOps0 (W0 m ρ c))) (Proc.devRef .tc main_v36) = _
  after_results_simp
  rfl

end Cert.KernelIdeal.Chain

end
-- ==== Proof.Region0.lean ====
/-
  Region 0, the first layer's dense product. Each of the 25 grid points multiplies a block of 2000 rows of `x` by the whole of `W1` (the casts to bf16 change nothing on the extended reals; the product into a zero accumulator is the plain sum over the contracted axis) and writes rows `2000 t … 2000 t + 1999` of the result; the blocks tile the result, so the array after the region is `x · W1`.
-/
import proofs.«130536_j28544352649461_1_alg».proof.Proof.Gen.KernelIdeal.Frame
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The block product at an index -/

/-- Axis 0 of the left operand's index is the output's row (a free axis). -/
theorem dot0_lhs_0 (i : S2000x128.Idx) (q : dot_S2000x768_S768x128_S2000x128_1_0_0_1_n_n.contr.Idx) :
    (dot_S2000x768_S768x128_S2000x128_1_0_0_1_n_n.lhsIdx i q 0).val = (i 0).val := by
  unfold DotDims.lhsIdx
  rw [dif_neg (show ¬(0 : Fin S2000x768.rank) ∈ dot_S2000x768_S768x128_S2000x128_1_0_0_1_n_n.lhsBatch by decide), dif_pos (show (0 : Fin S2000x768.rank) ∈ dot_S2000x768_S768x128_S2000x128_1_0_0_1_n_n.lhsNonContracting by decide)]
  rfl
/-- Axis 1 of the left operand's index is the contracted coordinate. -/
theorem dot0_lhs_1 (i : S2000x128.Idx) (q : dot_S2000x768_S768x128_S2000x128_1_0_0_1_n_n.contr.Idx) :
    (dot_S2000x768_S768x128_S2000x128_1_0_0_1_n_n.lhsIdx i q 1).val = (q ⟨0, by decide⟩).val :=
  dot_S2000x768_S768x128_S2000x128_1_0_0_1_n_n.lhsIdx_val_of_single rfl i q
/-- Axis 0 of the right operand's index is the contracted coordinate. -/
theorem dot0_rhs_0 (i : S2000x128.Idx) (q : dot_S2000x768_S768x128_S2000x128_1_0_0_1_n_n.contr.Idx) :
    (dot_S2000x768_S768x128_S2000x128_1_0_0_1_n_n.rhsIdx i q 0).val = (q ⟨0, by decide⟩).val :=
  dot_S2000x768_S768x128_S2000x128_1_0_0_1_n_n.rhsIdx_val_of_single rfl i q
/-- Axis 1 of the right operand's index is the output's column (a free axis). -/
theorem dot0_rhs_1 (i : S2000x128.Idx) (q : dot_S2000x768_S768x128_S2000x128_1_0_0_1_n_n.contr.Idx) :
    (dot_S2000x768_S768x128_S2000x128_1_0_0_1_n_n.rhsIdx i q 1).val = (i 1).val := by
  unfold DotDims.rhsIdx
  rw [dif_neg (show ¬(1 : Fin S768x128.rank) ∈ dot_S2000x768_S768x128_S2000x128_1_0_0_1_n_n.rhsBatch by decide), dif_pos (show (1 : Fin S768x128.rank) ∈ dot_S2000x768_S768x128_S2000x128_1_0_0_1_n_n.rhsNonContracting by decide)]
  rfl

/-- The body's payload at entry `(p, q)`: the casts to bf16 are the identity on the extended reals and the product
    into the zero accumulator is the sum over the contracted axis of the operands' products. -/
theorem blockProduct0_apply (x0 : Vec Ideal S2000x768 .f32) (x1 : Vec Ideal S768x128 .f32) (p : Fin 2000) (q : Fin 128) :
    (k0_pay1 (F := Ideal) x0 x1) (ix2 p q) = ∑ k : Fin 768, x0 (ix2 p k) * x1 (ix2 k q) := by
  unfold k0_pay1
  simp only [matmul]
  rw [Ideal.matmul_constant_zero_apply, ← Equiv.sum_comp (contrEquiv1 dot_S2000x768_S768x128_S2000x128_1_0_0_1_n_n 768 rfl rfl).symm]
  refine Finset.sum_congr rfl fun k _ => ?_
  have hk := contrEquiv1_symm_val dot_S2000x768_S768x128_S2000x128_1_0_0_1_n_n 768 rfl rfl k
  have el : dot_S2000x768_S768x128_S2000x128_1_0_0_1_n_n.lhsIdx (ix2 p q) ((contrEquiv1 dot_S2000x768_S768x128_S2000x128_1_0_0_1_n_n 768 rfl rfl).symm k) = ix2 p k := funext fun a => Fin.ext (by
    match a with
    | ⟨0, _⟩ => exact dot0_lhs_0 _ _
    | ⟨1, _⟩ => exact (dot0_lhs_1 _ _).trans hk)
  have er : dot_S2000x768_S768x128_S2000x128_1_0_0_1_n_n.rhsIdx (ix2 p q) ((contrEquiv1 dot_S2000x768_S768x128_S2000x128_1_0_0_1_n_n 768 rfl rfl).symm k) = ix2 k q := funext fun a => Fin.ext (by
    match a with
    | ⟨0, _⟩ => exact (dot0_rhs_0 _ _).trans hk
    | ⟨1, _⟩ => exact dot0_rhs_1 _ _)
  rw [el, er]
  rfl

/-- The payload against the dense product: when row `p` of the left block is row `r` of `A` and the right block is `B`,
    entry `(p, q)` of the block product is entry `(r, q)` of `A · B`. -/
theorem blockProduct0_eq_mm (x0 : Vec Ideal S2000x768 .f32) (x1 : Vec Ideal S768x128 .f32)
    (A : Cert.GCN.Mat 50000 768) (B : Cert.GCN.Mat 768 128) (j : S2000x128.Idx) (i : S50000x128.Idx)
    (h0 : ∀ k : Fin 768, x0 (ix2 (j 0) k) = A (ix2 (i 0) k))
    (h1 : ∀ k : Fin 768, x1 (ix2 k (j 1)) = B (ix2 k (i 1))) :
    (k0_pay1 (F := Ideal) x0 x1) j = Cert.GCN.mm 50000 768 128 A B i := by
  refine (congrArg (k0_pay1 (F := Ideal) x0 x1) (eq_ix2 j)).trans ?_
  refine (blockProduct0_apply x0 x1 (j 0) (j 1)).trans ?_
  unfold Cert.GCN.mm
  exact Finset.sum_congr rfl fun k _ => congrArg₂ (· * ·) (h0 k) (h1 k)

/-! ## From the blocks to the array -/

theorem zeroOffsets0 : (![0, 0] : Fin 2 → Nat) = fun _ => 0 := funext fun a => by fin_cases a <;> rfl

/-- The windows' index maps, decided over the grid: the row blocks (windows 0 and 2) sit at block row `t`, the weight
    (window 1) at block `(0, 0)` at every point. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row below 25 is some point's. -/
theorem blockRowOnto0 : ∀ b : Fin 25, ∃ t : Fin cfg0.N, t.val = b.val :=
  (by decide +kernel : ∀ b : Fin 25, ∃ t : Fin grid0.N, t.val = b.val)

variable (V : (c : Dev nD) → (b : Ref sig .tc) → Buf (Elt Ideal) ((c : Thread nD τ).loc b))

/-- Window 0's block at point `t` is rows `2000 t … 2000 t + 1999` of the features. -/
theorem rowBlock0_apply (c : Dev nD) (t : Fin cfg0.N) (y : S2000x768.Idx) (i : S50000x768.Idx)
    (h0 : (i 0).val = t.val * 2000 + (y 0).val) (h1 : (i 1).val = (y 1).val) :
    (iblk0 (F := Ideal) V c 0 t : Vec Ideal S2000x768 .f32) y = (V c main_arg0 : S50000x768.Idx → EReal) i := by
  obtain ⟨e0, e1, -, -, -, -⟩ := blockIndices0 t
  unfold iblk0
  rw [View.read_apply]
  show V c main_arg0 _ = V c main_arg0 _
  congr 1
  funext a; apply Fin.ext
  match a with
  | ⟨0, _⟩ => show win0_0.index t (0 : Fin 2) * 2000 + 1 * (y 0).val = (i 0).val; rw [e0, h0]; omega
  | ⟨1, _⟩ => show win0_0.index t (1 : Fin 2) * 768 + 1 * (y 1).val = (i 1).val; rw [e1, h1]; omega

/-- Window 1's block at every point is the whole weight array. -/
theorem weightBlock0_apply (c : Dev nD) (t : Fin cfg0.N) (y : S768x128.Idx) (i : S768x128.Idx)
    (h0 : (i 0).val = (y 0).val) (h1 : (i 1).val = (y 1).val) :
    (iblk0 (F := Ideal) V c 1 t : Vec Ideal S768x128 .f32) y = (V c main_arg2 : S768x128.Idx → EReal) i := by
  obtain ⟨-, -, e2, e3, -, -⟩ := blockIndices0 t
  unfold iblk0
  rw [View.read_apply]
  show V c main_arg2 _ = V c main_arg2 _
  congr 1
  funext a; apply Fin.ext
  match a with
  | ⟨0, _⟩ => show win0_1.index t (0 : Fin 2) * 768 + 1 * (y 0).val = (i 0).val; rw [e2, h0]; omega
  | ⟨1, _⟩ => show win0_1.index t (1 : Fin 2) * 128 + 1 * (y 1).val = (i 1).val; rw [e3, h1]; omega

/-- What point `t` writes back is block `t` of the dense product of the arrays as the region finds them. -/
theorem flushed0_eq (c : Dev nD) (t : Fin cfg0.N) :
    (dat0 (F := Ideal) V c).flushed 2 t = ((cfg0.win 2).blk t).view.read (Elt Ideal) (Cert.GCN.mm 50000 768 128 (V c main_arg0) (V c main_arg2)) := by
  show (cfg0.win 2).cut (grid0.coords t) ((dat0 (F := Ideal) V c).after 2 t) = _
  rw [after0_2]
  unfold out0_2
  rw [View.canon_unit_zero zeroOffsets0]
  simp only [View.ld_unit_zero (S := S2000x768) zeroOffsets0, View.ld_unit_zero (S := S768x128) zeroOffsets0]
  obtain ⟨-, -, -, -, e4, e5⟩ := blockIndices0 t
  funext j
  show k0_pay1 (F := Ideal) (iblk0 V c 0 t) (iblk0 V c 1 t) j = Cert.GCN.mm 50000 768 128 (V c main_arg0) (V c main_arg2) (((cfg0.win 2).blk t).view.emb j)
  refine blockProduct0_eq_mm _ _ _ _ j _ (fun k => ?_) (fun k => ?_)
  · refine rowBlock0_apply V c t _ _ ?_ rfl
    show win0_2.index t (0 : Fin 2) * 2000 + 1 * (j 0).val = t.val * 2000 + (j 0).val
    rw [e4]; omega
  · refine weightBlock0_apply V c t _ _ rfl ?_
    show win0_2.index t (1 : Fin 2) * 128 + 1 * (j 1).val = (j 1).val
    rw [e5]; omega

/-- An index of the result is in point `t`'s block iff each coordinate is in the block's range on its axis. -/
theorem mem_block0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v37).slice (win0_2.rect t)).set ↔ _
  rw [View.set_slice_whole, Rect.mem_set_unit]
  exact Iff.rfl

/-- The 25 row blocks tile the result: row `r` is in the block of point `r / 2000`. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockRowOnto0 ⟨(i 0).val / 2000, by omega⟩
  have ht' : t.val = (i 0).val / 2000 := ht
  obtain ⟨-, -, -, -, e4, e5⟩ := blockIndices0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array after the region: every point writes back its block of the dense product and the blocks cover the array. -/
theorem region0_value (c : Dev nD) :
    (dat0 (F := Ideal) V c).arrAt 2 cfg0.N = Cert.GCN.mm 50000 768 128 (V c main_arg0) (V c main_arg2) :=
  (dat0 (F := Ideal) V c).arrAt_eq_of_cover 2 (Cert.GCN.mm 50000 768 128 (V c main_arg0) (V c main_arg2))
    (fun t _ => flushed0_eq V c t) covered0

end Cert.KernelIdeal.RegionValue

end
-- ==== Proof.Region1.lean ====
/-
  Region 1, the first layer's messages. Each of the 403 grid points multiplies a block of 4096 gathered rows by that block's column of edge weights, broadcast along the row; the blocks tile the result, so the array after the region is every gathered row scaled by its edge's weight.
-/
import proofs.«130536_j28544352649461_1_alg».proof.Proof.Gen.KernelIdeal.Frame
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block rectangle, as a constant function. -/
theorem hz1 : (![0, 0] : Fin 2 → Nat) = fun _ => 0 := funext fun a => by fin_cases a <;> rfl

/-- The payload at an index: the row's entry times the row's weight. -/
theorem pay1_apply (x0 : Vec Ideal S4096x128 .f32) (x1 : Vec Ideal S4096x1 .f32) (p : Fin 4096) (q : Fin 128) :
    k1_pay1 x0 x1 (ix2 p q) = x0 (ix2 p q) * x1 (ix2 p 0) := by
  unfold k1_pay1
  rw [mulf_apply, shapeCast_self, shapeCast_self]
  rw [broadcastTo_apply (s := S4096x1) (t := S4096x128) x1 _ (ix2 p q) (ix2 p 0) (fun a => by
    match a with
    | ⟨0, _⟩ => rfl
    | ⟨1, _⟩ => rfl)]

/-- The same at any index of the block. -/
theorem pay1_apply' (x0 : Vec Ideal S4096x128 .f32) (x1 : Vec Ideal S4096x1 .f32) (j : S4096x128.Idx) :
    k1_pay1 x0 x1 j = x0 j * x1 (ix2 (j 0) 0) := by
  rw [eq_ix2 j]
  exact pay1_apply x0 x1 (j 0) (j 1)

/-- The three index maps over the grid: every window's block index is the point's number on the rows and 0 on the columns. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled array: the payload at an index, each input block read at the row the output's block names. -/
theorem flushed1_eq (c : Dev nD) (t : Fin cfg1.N) :
    (dat1 (F := Ideal) V c).flushed 2 t
      = ((cfg1.win 2).blk t).view.read (Elt Ideal) (Cert.GCN.scale 1650688 128 (V c main_v44) (V c main_v36)) := by
  show (cfg1.win 2).cut (grid1.coords t) ((dat1 V c).after 2 t) = _
  rw [after1_2]
  unfold out1_2
  rw [View.canon_unit_zero hz1]
  simp only [View.ld_unit_zero (S := S4096x128) hz1, View.ld_unit_zero (S := S4096x1) hz1]
  obtain ⟨e0, e1, e2, e3, e4, e5⟩ := idx_facts1 t
  funext j
  show k1_pay1 (iblk1 V c 0 t) (iblk1 V c 1 t) (j : S4096x128.Idx) = _
  rw [pay1_apply']
  have h0 : ((cfg1.win 0).blk t).view.emb j = ((cfg1.win 2).blk t).view.emb j := by
    funext a; apply Fin.ext
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (n0 := 4096) (n1 := 1) (j 0) 0) = ix2 (n0 := 1650688) (n1 := 1) ((((cfg1.win 2).blk t).view.emb j) 0) 0 := by
    funext a; apply Fin.ext
    match a with
    | ⟨0, _⟩ => show win1_1.index t (0 : Fin 2) * 4096 + 1 * (j 0).val = win1_2.index t (0 : Fin 2) * 4096 + 1 * (j 0).val; omega
    | ⟨1, _⟩ => show win1_1.index t (1 : Fin 2) * 1 + 1 * 0 = 0; omega
  exact congrArg₂ (fun (a b : EReal) => a * b) (congrArg (V c main_v44) h0) (congrArg (V c main_v36) h1)

/-- An index of the array is in point `t`'s block iff each coordinate is in the block's range on its axis. -/
theorem mem_blk1 (t : Fin cfg1.N) (i : S1650688x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v45).slice (win1_2.rect t)).set ↔ _
  rw [View.set_slice_whole, Rect.mem_set_unit]
  exact Iff.rfl

/-- Every index of the array is in some point's block: row `r` is in the block of point `r / 4096` (403 × 4096 rows in all). -/
theorem cover1 (i : S1650688x128.Idx) :
    ∃ t : Fin cfg1.N, (cfg1.win 2).flush t = true ∧ i ∈ ((cfg1.win 2).blk t).view.set := by
  have hi0 : (i 0).val < 1650688 := (i 0).isLt
  have hi1 : (i 1).val < 128 := (i 1).isLt
  have hN : cfg1.N = 403 := N_1
  obtain ⟨t, ht⟩ : ∃ t : Fin cfg1.N, t.val = (i 0).val / 4096 := ⟨⟨(i 0).val / 4096, by rw [hN]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 128 ≤ (i 1).val ∧ (i 1).val < win1_2.index t (1 : Fin 2) * 128 + 128; omega

/-- The array after the region: the blocks written back cover it, and each is its block of the scaled array. -/
theorem region1_value (c : Dev nD) :
    (dat1 (F := Ideal) V c).arrAt 2 cfg1.N = Cert.GCN.scale 1650688 128 (V c main_v44) (V c main_v36) :=
  (dat1 V c).arrAt_eq_of_cover 2 _ (fun t _ => flushed1_eq V c t) (fun i => cover1 i)

end Cert.KernelIdeal.RegionValue

end
-- ==== Proof.Region2.lean ====
/-
  Region 2, the first layer's bias and positive part. Each of the 25 grid points adds the one-row bias to 2000 rows of the aggregate and takes the maximum with zero; the blocks tile the result.
-/
import proofs.«130536_j28544352649461_1_alg».proof.Proof.Gen.KernelIdeal.Frame
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole-block rectangles start at the zero offsets. -/
theorem zero_offsets2 : (![0, 0] : Fin 2 → Nat) = fun _ => 0 := funext fun a => by fin_cases a <;> rfl

/-- The body's arithmetic at row `p`, column `q` of a block: the block's entry plus the bias row's entry of that column,
    then the maximum with zero. -/
theorem pay2_apply (x0 : Vec Ideal S2000x128 .f32) (x1 : Vec Ideal S1x128 .f32) (p : Fin 2000) (q : Fin 128) :
    k2_pay1 x0 x1 (ix2 p q) = max (x0 (ix2 p q) + x1 (ix2 0 q)) 0 := by
  unfold k2_pay1
  rw [maximumf_apply, addf_apply, broadcast_apply, shapeCast_self, shapeCast_self,
    broadcastTo_apply x1 broadcasts_S1x128_S2000x128 (ix2 p q) (ix2 0 q) (fun a => by
      match a with
      | ⟨0, _⟩ => rfl
      | ⟨1, _⟩ => rfl)]
  show max (x0 (ix2 p q) + x1 (ix2 0 q)) (Ideal.ofBits .f32 0x00000000#32) = _
  rw [Ideal.ofBits_zero_f32]

/-- The index maps over the 25 grid points: the aggregate's and the result's row block is the point's number, the bias is
    always its one whole block. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What a point writes, entry by entry, from the two arrays read where the blocks sit. -/
theorem block_apply2 (a : Cert.GCN.Mat 50000 128) (b : Cert.GCN.Mat 1 128) (x0 : Vec Ideal S2000x128 .f32) (x1 : Vec Ideal S1x128 .f32)
    (j : S2000x128.Idx) (i : S50000x128.Idx) (h0 : x0 j = a i) (h1 : x1 (ix2 0 (j 1)) = b (ix2 0 (i 1))) :
    k2_pay1 x0 x1 j = Cert.GCN.biasRelu 50000 128 a b i := by
  obtain ⟨p, q, rfl⟩ : ∃ (p : Fin 2000) (q : Fin 128), j = ix2 p q := ⟨j 0, j 1, eq_ix2 j⟩
  have h1' : x1 (ix2 0 q) = b (ix2 0 (i 1)) := h1
  rw [pay2_apply, h0, h1']
  rfl

/-- What point `t` writes back is block `t` of the bias-and-positive-part of the two arrays. -/
theorem flushed2_eq (c : Dev nD) (t : Fin cfg2.N) :
    (dat2 (F := Ideal) V c).flushed 2 t
      = ((cfg2.win 2).blk t).view.read (Elt Ideal) (Cert.GCN.biasRelu 50000 128 (V c main_v48) (V c main_v49)) := by
  show (cfg2.win 2).cut (grid2.coords t) ((dat2 V c).after 2 t) = _
  rw [after2_2]
  unfold out2_2
  rw [View.canon_unit_zero zero_offsets2]
  simp only [View.ld_unit_zero (S := S2000x128) zero_offsets2, View.ld_unit_zero (S := S1x128) zero_offsets2]
  obtain ⟨e0, e1, e2, e3, e4, e5⟩ := index_facts2 t
  funext j
  refine block_apply2 (V c main_v48) (V c main_v49) (iblk2 V c 0 t) (iblk2 V c 1 t) j (((cfg2.win 2).blk t).view.emb j) ?_ ?_
  · show V c main_v48 (((cfg2.win 0).blk t).view.emb j) = V c main_v48 (((cfg2.win 2).blk t).view.emb j)
    refine congrArg (V c main_v48) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * (j 1).val = win2_2.index t (1 : Fin 2) * 128 + 1 * (j 1).val; omega
  · show V c main_v49 (((cfg2.win 1).blk t).view.emb (ix2 0 (j 1))) = V c main_v49 (ix2 0 ((((cfg2.win 2).blk t).view.emb j) 1))
    refine congrArg (V c main_v49) (funext fun a => Fin.ext ?_)
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v50).slice (win2_2.rect t)).set ↔ _
  rw [View.set_slice_whole, Rect.mem_set_unit]
  exact Iff.rfl

/-- Every row of the array is in some point's block: row `r` is in the block of point `r / 2000`. -/
theorem covered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1, e2, e3, e4, e5⟩ := index_facts2 t
  have ht : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The region leaves the bias-and-positive-part of the aggregate in the result array. -/
theorem region2_value (c : Dev nD) :
    (dat2 (F := Ideal) V c).arrAt 2 cfg2.N = Cert.GCN.biasRelu 50000 128 (V c main_v48) (V c main_v49) :=
  (dat2 (F := Ideal) V c).arrAt_eq_of_cover 2 (Cert.GCN.biasRelu 50000 128 (V c main_v48) (V c main_v49))
    (fun t _ => flushed2_eq V c t) covered2

end Cert.KernelIdeal.RegionValue

end
-- ==== Proof.Region3.lean ====
/-
  Region 3, the second layer's dense product: 25 blocks of 2000 rows of the hidden features times the whole of `W2`, as in the first layer.
-/
import proofs.«130536_j28544352649461_1_alg».proof.Proof.Gen.KernelIdeal.Frame
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The block product at an index -/

/-- Axis 0 of the left operand's index is the output's row (a free axis). -/
theorem dot3_lhs_0 (i : S2000x2.Idx) (q : dot_S2000x128_S128x2_S2000x2_1_0_0_1_n_n.contr.Idx) :
    (dot_S2000x128_S128x2_S2000x2_1_0_0_1_n_n.lhsIdx i q 0).val = (i 0).val := by
  unfold DotDims.lhsIdx
  rw [dif_neg (show ¬(0 : Fin S2000x128.rank) ∈ dot_S2000x128_S128x2_S2000x2_1_0_0_1_n_n.lhsBatch by decide), dif_pos (show (0 : Fin S2000x128.rank) ∈ dot_S2000x128_S128x2_S2000x2_1_0_0_1_n_n.lhsNonContracting by decide)]
  rfl
/-- Axis 1 of the left operand's index is the contracted coordinate. -/
theorem dot3_lhs_1 (i : S2000x2.Idx) (q : dot_S2000x128_S128x2_S2000x2_1_0_0_1_n_n.contr.Idx) :
    (dot_S2000x128_S128x2_S2000x2_1_0_0_1_n_n.lhsIdx i q 1).val = (q ⟨0, by decide⟩).val :=
  dot_S2000x128_S128x2_S2000x2_1_0_0_1_n_n.lhsIdx_val_of_single rfl i q
/-- Axis 0 of the right operand's index is the contracted coordinate. -/
theorem dot3_rhs_0 (i : S2000x2.Idx) (q : dot_S2000x128_S128x2_S2000x2_1_0_0_1_n_n.contr.Idx) :
    (dot_S2000x128_S128x2_S2000x2_1_0_0_1_n_n.rhsIdx i q 0).val = (q ⟨0, by decide⟩).val :=
  dot_S2000x128_S128x2_S2000x2_1_0_0_1_n_n.rhsIdx_val_of_single rfl i q
/-- Axis 1 of the right operand's index is the output's column (a free axis). -/
theorem dot3_rhs_1 (i : S2000x2.Idx) (q : dot_S2000x128_S128x2_S2000x2_1_0_0_1_n_n.contr.Idx) :
    (dot_S2000x128_S128x2_S2000x2_1_0_0_1_n_n.rhsIdx i q 1).val = (i 1).val := by
  unfold DotDims.rhsIdx
  rw [dif_neg (show ¬(1 : Fin S128x2.rank) ∈ dot_S2000x128_S128x2_S2000x2_1_0_0_1_n_n.rhsBatch by decide), dif_pos (show (1 : Fin S128x2.rank) ∈ dot_S2000x128_S128x2_S2000x2_1_0_0_1_n_n.rhsNonContracting by decide)]
  rfl

/-- The body's payload at entry `(p, q)`: the cast to the same shape and the casts to bf16 are the identity on the extended reals and the product
    into the zero accumulator is the sum over the contracted axis of the operands' products. -/
theorem blockProduct3_apply (x0 : Vec Ideal S2000x128 .f32) (x1 : Vec Ideal S128x2 .f32) (p : Fin 2000) (q : Fin 2) :
    (k3_pay1 (F := Ideal) x0 x1) (ix2 p q) = ∑ k : Fin 128, x0 (ix2 p k) * x1 (ix2 k q) := by
  unfold k3_pay1
  rw [shapeCast_self]
  simp only [matmul]
  rw [Ideal.matmul_constant_zero_apply, ← Equiv.sum_comp (contrEquiv1 dot_S2000x128_S128x2_S2000x2_1_0_0_1_n_n 128 rfl rfl).symm]
  refine Finset.sum_congr rfl fun k _ => ?_
  have hk := contrEquiv1_symm_val dot_S2000x128_S128x2_S2000x2_1_0_0_1_n_n 128 rfl rfl k
  have el : dot_S2000x128_S128x2_S2000x2_1_0_0_1_n_n.lhsIdx (ix2 p q) ((contrEquiv1 dot_S2000x128_S128x2_S2000x2_1_0_0_1_n_n 128 rfl rfl).symm k) = ix2 p k := funext fun a => Fin.ext (by
    match a with
    | ⟨0, _⟩ => exact dot3_lhs_0 _ _
    | ⟨1, _⟩ => exact (dot3_lhs_1 _ _).trans hk)
  have er : dot_S2000x128_S128x2_S2000x2_1_0_0_1_n_n.rhsIdx (ix2 p q) ((contrEquiv1 dot_S2000x128_S128x2_S2000x2_1_0_0_1_n_n 128 rfl rfl).symm k) = ix2 k q := funext fun a => Fin.ext (by
    match a with
    | ⟨0, _⟩ => exact (dot3_rhs_0 _ _).trans hk
    | ⟨1, _⟩ => exact dot3_rhs_1 _ _)
  rw [el, er]
  rfl

/-- The payload against the dense product: when row `p` of the left block is row `r` of `A` and the right block is `B`,
    entry `(p, q)` of the block product is entry `(r, q)` of `A · B`. -/
theorem blockProduct3_eq_mm (x0 : Vec Ideal S2000x128 .f32) (x1 : Vec Ideal S128x2 .f32)
    (A : Cert.GCN.Mat 50000 128) (B : Cert.GCN.Mat 128 2) (j : S2000x2.Idx) (i : S50000x2.Idx)
    (h0 : ∀ k : Fin 128, x0 (ix2 (j 0) k) = A (ix2 (i 0) k))
    (h1 : ∀ k : Fin 128, x1 (ix2 k (j 1)) = B (ix2 k (i 1))) :
    (k3_pay1 (F := Ideal) x0 x1) j = Cert.GCN.mm 50000 128 2 A B i := by
  refine (congrArg (k3_pay1 (F := Ideal) x0 x1) (eq_ix2 j)).trans ?_
  refine (blockProduct3_apply x0 x1 (j 0) (j 1)).trans ?_
  unfold Cert.GCN.mm
  exact Finset.sum_congr rfl fun k _ => congrArg₂ (· * ·) (h0 k) (h1 k)

/-! ## From the blocks to the array -/

theorem zeroOffsets3 : (![0, 0] : Fin 2 → Nat) = fun _ => 0 := funext fun a => by fin_cases a <;> rfl

/-- The windows' index maps, decided over the grid: the row blocks (windows 0 and 2) sit at block row `t`, the weight
    (window 1) at block `(0, 0)` at every point. -/
theorem blockIndices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row below 25 is some point's. -/
theorem blockRowOnto3 : ∀ b : Fin 25, ∃ t : Fin cfg3.N, t.val = b.val :=
  (by decide +kernel : ∀ b : Fin 25, ∃ t : Fin grid3.N, t.val = b.val)

variable (V : (c : Dev nD) → (b : Ref sig .tc) → Buf (Elt Ideal) ((c : Thread nD τ).loc b))

/-- Window 0's block at point `t` is rows `2000 t … 2000 t + 1999` of the hidden features. -/
theorem rowBlock3_apply (c : Dev nD) (t : Fin cfg3.N) (y : S2000x128.Idx) (i : S50000x128.Idx)
    (h0 : (i 0).val = t.val * 2000 + (y 0).val) (h1 : (i 1).val = (y 1).val) :
    (iblk3 (F := Ideal) V c 0 t : Vec Ideal S2000x128 .f32) y = (V c main_v50 : S50000x128.Idx → EReal) i := by
  obtain ⟨e0, e1, -, -, -, -⟩ := blockIndices3 t
  unfold iblk3
  rw [View.read_apply]
  show V c main_v50 _ = V c main_v50 _
  congr 1
  funext a; apply Fin.ext
  match a with
  | ⟨0, _⟩ => show win3_0.index t (0 : Fin 2) * 2000 + 1 * (y 0).val = (i 0).val; rw [e0, h0]; omega
  | ⟨1, _⟩ => show win3_0.index t (1 : Fin 2) * 128 + 1 * (y 1).val = (i 1).val; rw [e1, h1]; omega

/-- Window 1's block at every point is the whole weight array. -/
theorem weightBlock3_apply (c : Dev nD) (t : Fin cfg3.N) (y : S128x2.Idx) (i : S128x2.Idx)
    (h0 : (i 0).val = (y 0).val) (h1 : (i 1).val = (y 1).val) :
    (iblk3 (F := Ideal) V c 1 t : Vec Ideal S128x2 .f32) y = (V c main_arg4 : S128x2.Idx → EReal) i := by
  obtain ⟨-, -, e2, e3, -, -⟩ := blockIndices3 t
  unfold iblk3
  rw [View.read_apply]
  show V c main_arg4 _ = V c main_arg4 _
  congr 1
  funext a; apply Fin.ext
  match a with
  | ⟨0, _⟩ => show win3_1.index t (0 : Fin 2) * 128 + 1 * (y 0).val = (i 0).val; rw [e2, h0]; omega
  | ⟨1, _⟩ => show win3_1.index t (1 : Fin 2) * 2 + 1 * (y 1).val = (i 1).val; rw [e3, h1]; omega

/-- What point `t` writes back is block `t` of the dense product of the arrays as the region finds them. -/
theorem flushed3_eq (c : Dev nD) (t : Fin cfg3.N) :
    (dat3 (F := Ideal) V c).flushed 2 t = ((cfg3.win 2).blk t).view.read (Elt Ideal) (Cert.GCN.mm 50000 128 2 (V c main_v50) (V c main_arg4)) := by
  show (cfg3.win 2).cut (grid3.coords t) ((dat3 (F := Ideal) V c).after 2 t) = _
  rw [after3_2]
  unfold out3_2
  rw [View.canon_unit_zero zeroOffsets3]
  simp only [View.ld_unit_zero (S := S2000x128) zeroOffsets3, View.ld_unit_zero (S := S128x2) zeroOffsets3]
  obtain ⟨-, -, -, -, e4, e5⟩ := blockIndices3 t
  funext j
  show k3_pay1 (F := Ideal) (iblk3 V c 0 t) (iblk3 V c 1 t) j = Cert.GCN.mm 50000 128 2 (V c main_v50) (V c main_arg4) (((cfg3.win 2).blk t).view.emb j)
  refine blockProduct3_eq_mm _ _ _ _ j _ (fun k => ?_) (fun k => ?_)
  · refine rowBlock3_apply V c t _ _ ?_ rfl
    show win3_2.index t (0 : Fin 2) * 2000 + 1 * (j 0).val = t.val * 2000 + (j 0).val
    rw [e4]; omega
  · refine weightBlock3_apply V c t _ _ rfl ?_
    show win3_2.index t (1 : Fin 2) * 2 + 1 * (j 1).val = (j 1).val
    rw [e5]; omega

/-- An index of the result is in point `t`'s block iff each coordinate is in the block's range on its axis. -/
theorem mem_block3 (t : Fin cfg3.N) (i : S50000x2.Idx) :
    i ∈ ((cfg3.win 2).blk t).view.set ↔ ∀ a : Fin 2, win3_2.index t a * S2000x2.size a ≤ (i a).val ∧ (i a).val < win3_2.index t a * S2000x2.size a + S2000x2.size a := by
  show i ∈ ((View.whole main_v51).slice (win3_2.rect t)).set ↔ _
  rw [View.set_slice_whole, Rect.mem_set_unit]
  exact Iff.rfl

/-- The 25 row blocks tile the result: row `r` is in the block of point `r / 2000`. -/
theorem covered3 (i : S50000x2.Idx) :
    ∃ t : Fin cfg3.N, (cfg3.win 2).flush t = true ∧ i ∈ ((cfg3.win 2).blk t).view.set := by
  have hi0 : (i 0).val < 50000 := (i 0).isLt
  have hi1 : (i 1).val < 2 := (i 1).isLt
  obtain ⟨t, ht⟩ := blockRowOnto3 ⟨(i 0).val / 2000, by omega⟩
  have ht' : t.val = (i 0).val / 2000 := ht
  obtain ⟨-, -, -, -, e4, e5⟩ := blockIndices3 t
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 2 ≤ (i 1).val ∧ (i 1).val < win3_2.index t (1 : Fin 2) * 2 + 2; omega

/-- The array after the region: every point writes back its block of the dense product and the blocks cover the array. -/
theorem region3_value (c : Dev nD) :
    (dat3 (F := Ideal) V c).arrAt 2 cfg3.N = Cert.GCN.mm 50000 128 2 (V c main_v50) (V c main_arg4) :=
  (dat3 (F := Ideal) V c).arrAt_eq_of_cover 2 (Cert.GCN.mm 50000 128 2 (V c main_v50) (V c main_arg4))
    (fun t _ => flushed3_eq V c t) covered3

end Cert.KernelIdeal.RegionValue

end
-- ==== Proof.Region4.lean ====
/-
  Region 4, the second layer's messages: 403 blocks of 4096 gathered rows of width 2, each row scaled by its edge's weight.
-/
import proofs.«130536_j28544352649461_1_alg».proof.Proof.Gen.KernelIdeal.Frame
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block rectangle, as a constant function. -/
theorem hz4 : (![0, 0] : Fin 2 → Nat) = fun _ => 0 := funext fun a => by fin_cases a <;> rfl

/-- The payload at an index: the row's entry times the row's weight. -/
theorem pay4_apply (x0 : Vec Ideal S4096x2 .f32) (x1 : Vec Ideal S4096x1 .f32) (p : Fin 4096) (q : Fin 2) :
    k4_pay1 x0 x1 (ix2 p q) = x0 (ix2 p q) * x1 (ix2 p 0) := by
  unfold k4_pay1
  rw [mulf_apply, shapeCast_self, shapeCast_self]
  rw [broadcastTo_apply (s := S4096x1) (t := S4096x2) x1 _ (ix2 p q) (ix2 p 0) (fun a => by
    match a with
    | ⟨0, _⟩ => rfl
    | ⟨1, _⟩ => rfl)]

/-- The same at any index of the block. -/
theorem pay4_apply' (x0 : Vec Ideal S4096x2 .f32) (x1 : Vec Ideal S4096x1 .f32) (j : S4096x2.Idx) :
    k4_pay1 x0 x1 j = x0 j * x1 (ix2 (j 0) 0) := by
  rw [eq_ix2 j]
  exact pay4_apply x0 x1 (j 0) (j 1)

/-- The three index maps over the grid: every window's block index is the point's number on the rows and 0 on the columns. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the scaled array: the payload at an index, each input block read at the row the output's block names. -/
theorem flushed4_eq (c : Dev nD) (t : Fin cfg4.N) :
    (dat4 (F := Ideal) V c).flushed 2 t
      = ((cfg4.win 2).blk t).view.read (Elt Ideal) (Cert.GCN.scale 1650688 2 (V c main_v58) (V c main_v36)) := by
  show (cfg4.win 2).cut (grid4.coords t) ((dat4 V c).after 2 t) = _
  rw [after4_2]
  unfold out4_2
  rw [View.canon_unit_zero hz4]
  simp only [View.ld_unit_zero (S := S4096x2) hz4, View.ld_unit_zero (S := S4096x1) hz4]
  obtain ⟨e0, e1, e2, e3, e4, e5⟩ := idx_facts4 t
  funext j
  show k4_pay1 (iblk4 V c 0 t) (iblk4 V c 1 t) (j : S4096x2.Idx) = _
  rw [pay4_apply']
  have h0 : ((cfg4.win 0).blk t).view.emb j = ((cfg4.win 2).blk t).view.emb j := by
    funext a; apply Fin.ext
    match a with
    | ⟨0, _⟩ => show win4_0.index t (0 : Fin 2) * 4096 + 1 * (j 0).val = win4_2.index t (0 : Fin 2) * 4096 + 1 * (j 0).val; omega
    | ⟨1, _⟩ => show win4_0.index t (1 : Fin 2) * 2 + 1 * (j 1).val = win4_2.index t (1 : Fin 2) * 2 + 1 * (j 1).val; omega
  have h1 : ((cfg4.win 1).blk t).view.emb (ix2 (n0 := 4096) (n1 := 1) (j 0) 0) = ix2 (n0 := 1650688) (n1 := 1) ((((cfg4.win 2).blk t).view.emb j) 0) 0 := by
    funext a; apply Fin.ext
    match a with
    | ⟨0, _⟩ => show win4_1.index t (0 : Fin 2) * 4096 + 1 * (j 0).val = win4_2.index t (0 : Fin 2) * 4096 + 1 * (j 0).val; omega
    | ⟨1, _⟩ => show win4_1.index t (1 : Fin 2) * 1 + 1 * 0 = 0; omega
  exact congrArg₂ (fun (a b : EReal) => a * b) (congrArg (V c main_v58) h0) (congrArg (V c main_v36) h1)

/-- An index of the array is in point `t`'s block iff each coordinate is in the block's range on its axis. -/
theorem mem_blk4 (t : Fin cfg4.N) (i : S1650688x2.Idx) :
    i ∈ ((cfg4.win 2).blk t).view.set ↔ ∀ a : Fin 2, win4_2.index t a * S4096x2.size a ≤ (i a).val ∧ (i a).val < win4_2.index t a * S4096x2.size a + S4096x2.size a := by
  show i ∈ ((View.whole main_v59).slice (win4_2.rect t)).set ↔ _
  rw [View.set_slice_whole, Rect.mem_set_unit]
  exact Iff.rfl

/-- Every index of the array is in some point's block: row `r` is in the block of point `r / 4096` (403 × 4096 rows in all). -/
theorem cover4 (i : S1650688x2.Idx) :
    ∃ t : Fin cfg4.N, (cfg4.win 2).flush t = true ∧ i ∈ ((cfg4.win 2).blk t).view.set := by
  have hi0 : (i 0).val < 1650688 := (i 0).isLt
  have hi1 : (i 1).val < 2 := (i 1).isLt
  have hN : cfg4.N = 403 := N_4
  obtain ⟨t, ht⟩ : ∃ t : Fin cfg4.N, t.val = (i 0).val / 4096 := ⟨⟨(i 0).val / 4096, by rw [hN]; omega⟩, rfl⟩
  obtain ⟨-, -, -, -, e4, e5⟩ := idx_facts4 t
  refine ⟨t, flush4_2 t, ?_⟩
  rw [mem_blk4]
  intro a
  match a with
  | ⟨0, _⟩ => show win4_2.index t (0 : Fin 2) * 4096 ≤ (i 0).val ∧ (i 0).val < win4_2.index t (0 : Fin 2) * 4096 + 4096; omega
  | ⟨1, _⟩ => show win4_2.index t (1 : Fin 2) * 2 ≤ (i 1).val ∧ (i 1).val < win4_2.index t (1 : Fin 2) * 2 + 2; omega

/-- The array after the region: the blocks written back cover it, and each is its block of the scaled array. -/
theorem region4_value (c : Dev nD) :
    (dat4 (F := Ideal) V c).arrAt 2 cfg4.N = Cert.GCN.scale 1650688 2 (V c main_v58) (V c main_v36) :=
  (dat4 V c).arrAt_eq_of_cover 2 _ (fun t _ => flushed4_eq V c t) (fun i => cover4 i)

end Cert.KernelIdeal.RegionValue

end
-- ==== Proof.Region5.lean ====
/-
  Region 5, the second layer's bias and softmax. Each of the 25 grid points adds the one-row bias to 2000 rows, subtracts each row's maximum, exponentiates, and divides by the row's sum; the blocks tile the result.
-/
import proofs.«130536_j28544352649461_1_alg».proof.Proof.Gen.KernelIdeal.Frame
import proofs.«130536_j28544352649461_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

namespace Region5

/-! ## Layout operations and lane reductions read at an index -/

/-- An `[a]` array cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index. -/
theorem exp_apply {s : Shape} {φ : FTy} (a : FVec Ideal s φ) (i : s.Idx) : exp a i = Ideal.exp (a i) := rfl

/-- The word of minus infinity is the bottom element. -/
theorem ofBits_neg_inf_f32 : Ideal.ofBits .f32 0xFF800000#32 = ⊥ := by simp [Ideal.ofBits, Ideal.ieee]

/-- The index a lane reduction of a `2000 × 2` block inserts: row `p`, lane `k`. -/
theorem lift_row (p : Fin 2000) (k : Fin 2) : reduces_S2000x2_S2000.lift (ix1 p) k = ix2 p k := by
  funext a; match a with | ⟨0, _⟩ => rfl | ⟨1, _⟩ => rfl

/-- The maximum over the lanes of row `p`: the fold of `max` from the bottom element over the row's two entries. -/
theorem rowMax_at (v : FVec Ideal S2000x2 .f32) (hφ : FTy.f32 = FTy.f32 ∨ FTy.f32 = FTy.bf16)
    (hacc : (0xFF800000#32 : BitVec 32) = 0xFF800000#32) (p : Fin 2000) :
    multiReduction (F := Ideal) .maximumf [1] S2000 v 0xFF800000#32 reduces_S2000x2_S2000 hφ hacc (ix1 p)
      = (Finset.univ : Finset (Fin 2)).fold max ⊥ (fun k => v (ix2 p k)) := by
  refine (Ideal.multiReduction_maximumf_single v _ reduces_S2000x2_S2000 hφ hacc (ix1 p)).trans ?_
  show (Finset.univ : Finset (Fin 2)).fold max (Ideal.ofBits .f32 0xFF800000#32) (fun k => v (reduces_S2000x2_S2000.lift (ix1 p) k)) = _
  rw [ofBits_neg_inf_f32]
  exact congrArg (fun f => (Finset.univ : Finset (Fin 2)).fold max ⊥ f) (funext fun k => congrArg v (lift_row p k))

/-- The sum over the lanes of row `p`. -/
theorem rowSum_at (v : FVec Ideal S2000x2 .f32) (hφ : FTy.f32 = FTy.f32 ∨ FTy.f32 = FTy.bf16)
    (hacc : (0x00000000#32 : BitVec 32) = 0x00000000#32) (p : Fin 2000) :
    multiReduction (F := Ideal) .add [1] S2000 v 0x00000000#32 reduces_S2000x2_S2000 hφ hacc (ix1 p)
      = ∑ k : Fin 2, v (ix2 p k) := by
  refine (Ideal.multiReduction_add_single v _ reduces_S2000x2_S2000 hφ hacc (ix1 p)).trans ?_
  exact Finset.sum_congr rfl fun k _ => congrArg v (lift_row p k)

/-! ## The body's payload is the bias and softmax of its two blocks -/

/-- The block's row maxima as the body builds them: the lane maximum from minus infinity, once more against minus
    infinity, kept as a column and broadcast over the two lanes. -/
def maxCol (z : FVec Ideal S2000x2 .f32) (hφ : FTy.f32 = FTy.f32 ∨ FTy.f32 = FTy.bf16)
    (h1 : (0xFF800000#32 : BitVec 32) = 0xFF800000#32) : FVec Ideal S2000x2 .f32 :=
  broadcastTo S2000x2 (shapeCast S2000x1 (maximumf (broadcast S2000 (FloatOps.ofBits .f32 0xFF800000#32))
    (multiReduction .maximumf [1] S2000 z 0xFF800000#32 reduces_S2000x2_S2000 hφ h1)) shapeCasts_S2000_S2000x1)
    broadcasts_S2000x1_S2000x2

/-- At `(r, k)` it is the maximum of row `r`. -/
theorem maxCol_apply (z : FVec Ideal S2000x2 .f32) (hφ : FTy.f32 = FTy.f32 ∨ FTy.f32 = FTy.bf16)
    (h1 : (0xFF800000#32 : BitVec 32) = 0xFF800000#32) (r : Fin 2000) (k : Fin 2) :
    maxCol z hφ h1 (ix2 r k) = Cert.GCN.rowMax 2000 2 z r := by
  unfold maxCol
  rw [broadcastTo_a1_ab_apply, shapeCast_a_a1_apply, maximumf_apply, broadcast_apply, rowMax_at, Ideal.ofBits_def,
    ofBits_neg_inf_f32]
  rfl

/-- Subtracting the row maxima, exponentiating, and dividing by the lane sums kept as a column and broadcast back is
    the softmax along each row. -/
theorem softmax_block (z : FVec Ideal S2000x2 .f32) (hφ : FTy.f32 = FTy.f32 ∨ FTy.f32 = FTy.bf16)
    (h1 : (0xFF800000#32 : BitVec 32) = 0xFF800000#32) (h0 : (0x00000000#32 : BitVec 32) = 0x00000000#32) :
    divf (exp (subf z (maxCol z hφ h1)))
      (broadcastTo S2000x2 (shapeCast S2000x1
        (multiReduction .add [1] S2000 (exp (subf z (maxCol z hφ h1))) 0x00000000#32 reduces_S2000x2_S2000 hφ h0)
        shapeCasts_S2000_S2000x1) broadcasts_S2000x1_S2000x2)
      = Cert.GCN.softmaxRows 2000 2 z := by
  have he : (exp (subf z (maxCol z hφ h1)) : FVec Ideal S2000x2 .f32)
      = fun i => Ideal.exp (z i - Cert.GCN.rowMax 2000 2 z (i 0)) := by
    funext j
    obtain ⟨r, k, rfl⟩ : ∃ (r : Fin 2000) (k : Fin 2), j = ix2 r k := ⟨j 0, j 1, eq_ix2 j⟩
    rw [exp_apply, subf_apply, maxCol_apply]
  rw [he]
  funext j
  obtain ⟨p, q, rfl⟩ : ∃ (p : Fin 2000) (q : Fin 2), j = ix2 p q := ⟨j 0, j 1, eq_ix2 j⟩
  rw [divf_apply, broadcastTo_a1_ab_apply, shapeCast_a_a1_apply, rowSum_at]
  rfl

/-- The payload of two blocks is the bias and softmax of the blocks. -/
theorem pay_eq (x0 : Vec Ideal S2000x2 .f32) (x1 : Vec Ideal S1x2 .f32) :
    k5_pay1 (F := Ideal) x0 x1 = Cert.GCN.biasSoftmax 2000 2 x0 x1 := by
  unfold k5_pay1
  dsimp only
  rw [shapeCast_self, shapeCast_self]
  have e5 : (addf x0 (broadcastTo S2000x2 x1 broadcasts_S1x2_S2000x2) : FVec Ideal S2000x2 .f32)
      = Cert.GCN.biased 2000 2 x0 x1 := by
    funext j
    obtain ⟨r, k, rfl⟩ : ∃ (r : Fin 2000) (k : Fin 2), j = ix2 r k := ⟨j 0, j 1, eq_ix2 j⟩
    rw [addf_apply, broadcastTo_1b_ab_apply]
    rfl
  show _ = Cert.GCN.softmaxRows 2000 2 (Cert.GCN.biased 2000 2 x0 x1)
  rw [e5]
  generalize Cert.GCN.biased 2000 2 x0 x1 = z
  exact softmax_block z _ _ _

/-! ## From the blocks to the array -/

/-- The bias and softmax of a block of 2000 rows is the bias and softmax of the whole array read at those rows: each
    row's value depends on that row only. `T` is the block row. -/
theorem block_softmax (A : Cert.GCN.Mat 50000 2) (B : Cert.GCN.Mat 1 2) (a : Cert.GCN.Mat 2000 2) (b : Cert.GCN.Mat 1 2) (T : Nat)
    (ha : ∀ (y : S2000x2.Idx) (i : S50000x2.Idx), (i 0).val = T * 2000 + (y 0).val → (i 1).val = (y 1).val → a y = A i)
    (hb : ∀ y : S1x2.Idx, b y = B y)
    (j : S2000x2.Idx) (i : S50000x2.Idx) (h0 : (i 0).val = T * 2000 + (j 0).val) (h1 : (i 1).val = (j 1).val) :
    Cert.GCN.biasSoftmax 2000 2 a b j = Cert.GCN.biasSoftmax 50000 2 A B i := by
  obtain ⟨p, q, rfl⟩ : ∃ (p : Fin 2000) (q : Fin 2), j = ix2 p q := ⟨j 0, j 1, eq_ix2 j⟩
  obtain ⟨P, Q, rfl⟩ : ∃ (P : Fin 50000) (Q : Fin 2), i = ix2 P Q := ⟨i 0, i 1, eq_ix2 i⟩
  have hQ : Q = q := Fin.ext h1
  have hP : P.val = T * 2000 + p.val := h0
  rw [hQ]
  have hz : ∀ k : Fin 2, Cert.GCN.biased 2000 2 a b (ix2 p k) = Cert.GCN.biased 50000 2 A B (ix2 P k) := by
    intro k
    show a (ix2 p k) + b (ix2 0 k) = A (ix2 P k) + B (ix2 0 k)
    rw [ha (ix2 p k) (ix2 P k) hP rfl, hb]
  have hm : Cert.GCN.rowMax 2000 2 (Cert.GCN.biased 2000 2 a b) p
      = Cert.GCN.rowMax 50000 2 (Cert.GCN.biased 50000 2 A B) P := by
    unfold Cert.GCN.rowMax
    simp only [hz]
  show Ideal.div (Ideal.exp (Cert.GCN.biased 2000 2 a b (ix2 p q) - Cert.GCN.rowMax 2000 2 (Cert.GCN.biased 2000 2 a b) p))
      (∑ k : Fin 2, Ideal.exp (Cert.GCN.biased 2000 2 a b (ix2 p k) - Cert.GCN.rowMax 2000 2 (Cert.GCN.biased 2000 2 a b) p))
    = Ideal.div (Ideal.exp (Cert.GCN.biased 50000 2 A B (ix2 P q) - Cert.GCN.rowMax 50000 2 (Cert.GCN.biased 50000 2 A B) P))
      (∑ k : Fin 2, Ideal.exp (Cert.GCN.biased 50000 2 A B (ix2 P k) - Cert.GCN.rowMax 50000 2 (Cert.GCN.biased 50000 2 A B) P))
  simp only [hz, hm]

theorem zero_offsets : (![0, 0] : Fin 2 → Nat) = fun _ => 0 := funext fun a => by fin_cases a <;> rfl

/-- The printed index maps over the grid: the two row-block windows sit at block row `t`, lane block `0`; the bias
    window at block `(0, 0)`. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the bias and softmax of the two arrays as the region finds them. -/
theorem flushed_eq (c : Dev nD) (t : Fin cfg5.N) :
    (dat5 (F := Ideal) V c).flushed 2 t
      = ((cfg5.win 2).blk t).view.read (Elt Ideal) (Cert.GCN.biasSoftmax 50000 2 (V c main_v62) (V c main_v63)) := by
  show (cfg5.win 2).cut (grid5.coords t) ((dat5 (F := Ideal) V c).after 2 t) = _
  rw [after5_2]
  unfold out5_2
  rw [View.canon_unit_zero zero_offsets]
  simp only [View.ld_unit_zero (S := S2000x2) zero_offsets, View.ld_unit_zero (S := S1x2) zero_offsets]
  rw [pay_eq]
  obtain ⟨e0, e1, e2, e3, e4, e5⟩ := idx_facts t
  funext j
  refine block_softmax (V c main_v62) (V c main_v63) (iblk5 V c 0 t) (iblk5 V c 1 t) t.val ?_ ?_ j
    (((cfg5.win 2).blk t).view.emb j) ?_ ?_
  · intro y i hi0 hi1
    show V c main_v62 (((cfg5.win 0).blk t).view.emb y) = V c main_v62 i
    refine congrArg (V c main_v62) (funext fun a => Fin.ext ?_)
    match a with
    | ⟨0, _⟩ => show win5_0.index t (0 : Fin 2) * 2000 + 1 * (y 0).val = (i 0).val; omega
    | ⟨1, _⟩ => show win5_0.index t (1 : Fin 2) * 2 + 1 * (y 1).val = (i 1).val; omega
  · intro y
    show V c main_v63 (((cfg5.win 1).blk t).view.emb y) = V c main_v63 y
    refine congrArg (V c main_v63) (funext fun a => Fin.ext ?_)
    match a with
    | ⟨0, _⟩ => show win5_1.index t (0 : Fin 2) * 1 + 1 * (y 0).val = (y 0).val; omega
    | ⟨1, _⟩ => show win5_1.index t (1 : Fin 2) * 2 + 1 * (y 1).val = (y 1).val; omega
  · show win5_2.index t (0 : Fin 2) * 2000 + 1 * (j 0).val = t.val * 2000 + (j 0).val; omega
  · show win5_2.index t (1 : Fin 2) * 2 + 1 * (j 1).val = (j 1).val; omega

/-- An index of the array is in point `t`'s block iff each coordinate is in the block's range on its axis. -/
theorem mem_blk (t : Fin cfg5.N) (i : S50000x2.Idx) :
    i ∈ ((cfg5.win 2).blk t).view.set ↔ ∀ a : Fin 2, win5_2.index t a * S2000x2.size a ≤ (i a).val
      ∧ (i a).val < win5_2.index t a * S2000x2.size a + S2000x2.size a := by
  show i ∈ ((View.whole main_v64).slice (win5_2.rect t)).set ↔ _
  rw [View.set_slice_whole, Rect.mem_set_unit]
  exact Iff.rfl

/-- Every block row of the array is some point's. -/
theorem idx_onto : ∀ q0 : Fin 25, ∃ t : Fin cfg5.N, win5_2.index t = ![q0.val, 0] :=
  (by decide +kernel : ∀ q0 : Fin 25, ∃ t : Fin grid5.N, win5_2.index t = ![q0.val, 0])

/-- The 25 blocks of 2000 rows cover the 50000 rows: row `r` is in block `r / 2000`. -/
theorem cover (i : S50000x2.Idx) :
    ∃ t : Fin cfg5.N, (cfg5.win 2).flush t = true ∧ i ∈ ((cfg5.win 2).blk t).view.set := by
  have hi0 : (i 0).val < 50000 := (i 0).isLt
  have hi1 : (i 1).val < 2 := (i 1).isLt
  obtain ⟨t, ht⟩ := idx_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_blk]
  intro a
  match a with
  | ⟨0, _⟩ =>
    show win5_2.index t (0 : Fin 2) * 2000 ≤ (i 0).val ∧ (i 0).val < win5_2.index t (0 : Fin 2) * 2000 + 2000
    omega
  | ⟨1, _⟩ =>
    show win5_2.index t (1 : Fin 2) * 2 ≤ (i 1).val ∧ (i 1).val < win5_2.index t (1 : Fin 2) * 2 + 2
    omega

end Region5

/-- The array after the region: the bias and softmax of the two arrays the region finds, since every point writes its
    block of that function and the blocks cover the array. -/
theorem region5_value (c : Dev nD) :
    (dat5 (F := Ideal) V c).arrAt 2 cfg5.N = Cert.GCN.biasSoftmax 50000 2 (V c main_v62) (V c main_v63) :=
  (dat5 (F := Ideal) V c).arrAt_eq_of_cover 2 (Cert.GCN.biasSoftmax 50000 2 (V c main_v62) (V c main_v63))
    (fun t _ => Region5.flushed_eq V c t) Region5.cover

end Cert.KernelIdeal.RegionValue

end
-- ==== Proof.Chain.lean ====
/-
  The kernel's result, read back through its thirteen segments to the six arguments, stage by stage against the
  reference's stages. Each region's exit array is the whole-array function its blocks tile (the dense product, the
  scaled rows, bias and positive part, bias and softmax); each host stretch is read operation by operation; a buffer no
  later segment writes is carried unchanged to where it is read. The two scatter-adds over the padded edge list are the
  reference's over the plain list, since the padded edges carry weight zero. What results is the reference's last
  stage as a function of the arguments.
-/
import proofs.«130536_j28544352649461_1_alg».proof.Proof.Gen.KernelIdeal.Frame
import proofs.«130536_j28544352649461_1_alg».proof.Proof.RefReadP
import proofs.«130536_j28544352649461_1_alg».proof.Proof.Spec
import proofs.«130536_j28544352649461_1_alg».proof.Proof.Pad
import proofs.«130536_j28544352649461_1_alg».proof.Proof.RefBridge
import proofs.«130536_j28544352649461_1_alg».proof.Proof.RefSoftmax
import proofs.«130536_j28544352649461_1_alg».proof.Proof.Pre
import proofs.«130536_j28544352649461_1_alg».proof.Proof.Region0
import proofs.«130536_j28544352649461_1_alg».proof.Proof.Region1
import proofs.«130536_j28544352649461_1_alg».proof.Proof.Region2
import proofs.«130536_j28544352649461_1_alg».proof.Proof.Region3
import proofs.«130536_j28544352649461_1_alg».proof.Proof.Region4
import proofs.«130536_j28544352649461_1_alg».proof.Proof.Region5
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.GCN Cert.GCN.Edges Cert.ReferenceIdeal.Read

variable (m : (ℓ : Loc nD τ sig) → Buf (Elt Ideal) ℓ) (ρ : Dev nD → PrngReg) (c : Dev nD)

/-- A buffer that no operation of a host stretch writes holds after the stretch what it held before. -/
local macro "kept_by" ops:ident : term => `(StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## The arguments, where a region or a host stretch reads them -/

/-- The node features and the first weight matrix when region 0 is entered: as launched. -/
theorem W3_arg0 : W3 m ρ c (Proc.devRef .tc main_arg0) = (m ((c.tc : Thread nD τ).loc main_arg0)) :=
  calc W3 m ρ c (Proc.devRef .tc main_arg0)
    _ = W2 m ρ c (Proc.devRef .tc main_arg0) := kept_by hostOps0_2
    _ = W1 m ρ c (Proc.devRef .tc main_arg0) := kept_by hostOps0_1
    _ = W0 m ρ c (Proc.devRef .tc main_arg0) := kept_by hostOps0
    _ = _ := rfl
theorem W3_arg2 : W3 m ρ c (Proc.devRef .tc main_arg2) = (m ((c.tc : Thread nD τ).loc main_arg2)) :=
  calc W3 m ρ c (Proc.devRef .tc main_arg2)
    _ = W2 m ρ c (Proc.devRef .tc main_arg2) := kept_by hostOps0_2
    _ = W1 m ρ c (Proc.devRef .tc main_arg2) := kept_by hostOps0_1
    _ = W0 m ρ c (Proc.devRef .tc main_arg2) := kept_by hostOps0
    _ = _ := rfl

/-! ## The edge lists and the edge weights, as region 0 finds them -/

/-- The padded source list is the reference's source list, padded. -/
theorem W3_src : W3 m ρ c (Proc.devRef .tc main_v31) = padI (val_main_v3 (F := Ideal) (m ((c.tc : Thread nD τ).loc main_arg1))) :=
  (W3_src_gen (F := Ideal) m ρ c).trans rfl
/-- The padded target list is the reference's target list, padded. -/
theorem W3_dst : W3 m ρ c (Proc.devRef .tc main_v33) = padI (val_main_v6 (F := Ideal) (m ((c.tc : Thread nD τ).loc main_arg1))) :=
  (W3_dst_gen (F := Ideal) m ρ c).trans rfl
/-- The padded weight column is the reference's edge weights, padded. -/
theorem W3_norm : W3 m ρ c (Proc.devRef .tc main_v36) = padF (val_main_v30 (F := Ideal) (m ((c.tc : Thread nD τ).loc main_arg1))) :=
  (W3_norm_gen (F := Ideal) m ρ c).trans rfl

/-! ## Buffers that later segments read, carried to where they are read -/

theorem W4_src : W4 m ρ c (Proc.devRef .tc main_v31) = padI (val_main_v3 (F := Ideal) (m ((c.tc : Thread nD τ).loc main_arg1))) :=
  (W4_of_ne m ρ c main_v31 (by decide)).trans (W3_src m ρ c)
theorem W5_norm : W5 m ρ c (Proc.devRef .tc main_v36) = padF (val_main_v30 (F := Ideal) (m ((c.tc : Thread nD τ).loc main_arg1))) :=
  calc W5 m ρ c (Proc.devRef .tc main_v36)
    _ = W4 m ρ c (Proc.devRef .tc main_v36) := kept_by hostOps1
    _ = W3 m ρ c (Proc.devRef .tc main_v36) := W4_of_ne m ρ c main_v36 (by decide)
    _ = _ := W3_norm m ρ c
theorem W6_dst : W6 m ρ c (Proc.devRef .tc main_v33) = padI (val_main_v6 (F := Ideal) (m ((c.tc : Thread nD τ).loc main_arg1))) :=
  calc W6 m ρ c (Proc.devRef .tc main_v33)
    _ = W5 m ρ c (Proc.devRef .tc main_v33) := W6_of_ne m ρ c main_v33 (by decide)
    _ = W4 m ρ c (Proc.devRef .tc main_v33) := kept_by hostOps1
    _ = W3 m ρ c (Proc.devRef .tc main_v33) := W4_of_ne m ρ c main_v33 (by decide)
    _ = _ := W3_dst m ρ c
theorem W6_arg3 : W6 m ρ c (Proc.devRef .tc main_arg3) = (m ((c.tc : Thread nD τ).loc main_arg3)) :=
  calc W6 m ρ c (Proc.devRef .tc main_arg3)
    _ = W5 m ρ c (Proc.devRef .tc main_arg3) := W6_of_ne m ρ c main_arg3 (by decide)
    _ = W4 m ρ c (Proc.devRef .tc main_arg3) := kept_by hostOps1
    _ = W3 m ρ c (Proc.devRef .tc main_arg3) := W4_of_ne m ρ c main_arg3 (by decide)
    _ = W2 m ρ c (Proc.devRef .tc main_arg3) := kept_by hostOps0_2
    _ = W1 m ρ c (Proc.devRef .tc main_arg3) := kept_by hostOps0_1
    _ = W0 m ρ c (Proc.devRef .tc main_arg3) := kept_by hostOps0
    _ = _ := rfl
theorem W8_arg4 : W8 m ρ c (Proc.devRef .tc main_arg4) = (m ((c.tc : Thread nD τ).loc main_arg4)) :=
  calc W8 m ρ c (Proc.devRef .tc main_arg4)
    _ = W7 m ρ c (Proc.devRef .tc main_arg4) := W8_of_ne m ρ c main_arg4 (by decide)
    _ = W6 m ρ c (Proc.devRef .tc main_arg4) := kept_by hostOps2
    _ = W5 m ρ c (Proc.devRef .tc main_arg4) := W6_of_ne m ρ c main_arg4 (by decide)
    _ = W4 m ρ c (Proc.devRef .tc main_arg4) := kept_by hostOps1
    _ = W3 m ρ c (Proc.devRef .tc main_arg4) := W4_of_ne m ρ c main_arg4 (by decide)
    _ = W2 m ρ c (Proc.devRef .tc main_arg4) := kept_by hostOps0_2
    _ = W1 m ρ c (Proc.devRef .tc main_arg4) := kept_by hostOps0_1
    _ = W0 m ρ c (Proc.devRef .tc main_arg4) := kept_by hostOps0
    _ = _ := rfl
theorem W9_src : W9 m ρ c (Proc.devRef .tc main_v31) = padI (val_main_v3 (F := Ideal) (m ((c.tc : Thread nD τ).loc main_arg1))) :=
  calc W9 m ρ c (Proc.devRef .tc main_v31)
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := kept_by hostOps2
    _ = W5 m ρ c (Proc.devRef .tc main_v31) := W6_of_ne m ρ c main_v31 (by decide)
    _ = W4 m ρ c (Proc.devRef .tc main_v31) := kept_by hostOps1
    _ = _ := W4_src m ρ c
theorem W10_norm : W10 m ρ c (Proc.devRef .tc main_v36) = padF (val_main_v30 (F := Ideal) (m ((c.tc : Thread nD τ).loc main_arg1))) :=
  calc W10 m ρ c (Proc.devRef .tc main_v36)
    _ = W9 m ρ c (Proc.devRef .tc main_v36) := kept_by hostOps4
    _ = W8 m ρ c (Proc.devRef .tc main_v36) := W9_of_ne m ρ c main_v36 (by decide)
    _ = W7 m ρ c (Proc.devRef .tc main_v36) := W8_of_ne m ρ c main_v36 (by decide)
    _ = W6 m ρ c (Proc.devRef .tc main_v36) := kept_by hostOps2
    _ = W5 m ρ c (Proc.devRef .tc main_v36) := (W6_arr m ρ c 1).trans (((dat1 (V5 m ρ) c).arrAt_in 1 rfl _).trans (A_eq1 (V5 m ρ) c 1))
    _ = _ := W5_norm m ρ c
theorem W11_dst : W11 m ρ c (Proc.devRef .tc main_v33) = padI (val_main_v6 (F := Ideal) (m ((c.tc : Thread nD τ).loc main_arg1))) :=
  calc W11 m ρ c (Proc.devRef .tc main_v33)
    _ = W10 m ρ c (Proc.devRef .tc main_v33) := W11_of_ne m ρ c main_v33 (by decide)
    _ = W9 m ρ c (Proc.devRef .tc main_v33) := kept_by hostOps4
    _ = W8 m ρ c (Proc.devRef .tc main_v33) := W9_of_ne m ρ c main_v33 (by decide)
    _ = W7 m ρ c (Proc.devRef .tc main_v33) := W8_of_ne m ρ c main_v33 (by decide)
    _ = W6 m ρ c (Proc.devRef .tc main_v33) := kept_by hostOps2
    _ = _ := W6_dst m ρ c
theorem W11_arg5 : W11 m ρ c (Proc.devRef .tc main_arg5) = (m ((c.tc : Thread nD τ).loc main_arg5)) :=
  calc W11 m ρ c (Proc.devRef .tc main_arg5)
    _ = W10 m ρ c (Proc.devRef .tc main_arg5) := W11_of_ne m ρ c main_arg5 (by decide)
    _ = W9 m ρ c (Proc.devRef .tc main_arg5) := kept_by hostOps4
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := kept_by hostOps2
    _ = W5 m ρ c (Proc.devRef .tc main_arg5) := W6_of_ne m ρ c main_arg5 (by decide)
    _ = W4 m ρ c (Proc.devRef .tc main_arg5) := kept_by hostOps1
    _ = W3 m ρ c (Proc.devRef .tc main_arg5) := W4_of_ne m ρ c main_arg5 (by decide)
    _ = W2 m ρ c (Proc.devRef .tc main_arg5) := kept_by hostOps0_2
    _ = W1 m ρ c (Proc.devRef .tc main_arg5) := kept_by hostOps0_1
    _ = W0 m ρ c (Proc.devRef .tc main_arg5) := kept_by hostOps0
    _ = _ := rfl

/-! ## The first layer -/

/-- Region 0 leaves the dense product `x · W1`: the reference's `dot_general`. -/
theorem W4_lin : W4 m ρ c (Proc.devRef .tc main_v37) = val_main_v7 (F := Ideal) (m ((c.tc : Thread nD τ).loc main_arg0)) (m ((c.tc : Thread nD τ).loc main_arg2)) :=
  calc W4 m ρ c (Proc.devRef .tc main_v37)
    _ = (dat0 (F := Ideal) (V3 m ρ) c).arrAt 2 cfg0.N := W4_arr m ρ c 2
    _ = mm 50000 768 128 (V3 m ρ c main_arg0) (V3 m ρ c main_arg2) := RegionValue.region0_value (V3 m ρ) c
    _ = mm 50000 768 128 (m ((c.tc : Thread nD τ).loc main_arg0)) (m ((c.tc : Thread nD τ).loc main_arg2)) := by
          rw [show V3 m ρ c main_arg0 = (m ((c.tc : Thread nD τ).loc main_arg0)) from W3_arg0 m ρ c, show V3 m ρ c main_arg2 = (m ((c.tc : Thread nD τ).loc main_arg2)) from W3_arg2 m ρ c]
    _ = _ := (Cert.GCN.Ref.ref_mm1 _ _).symm

/-- The rows gathered for the padded edge list. -/
theorem W5_rows : W5 m ρ c (Proc.devRef .tc main_v44)
    = Host.gather gather_S50000x128_S1650688x1_S1650688x128_1_0_n_n_0_1_1128 (W4 m ρ c (Proc.devRef .tc main_v37))
        (broadcastInDim S1650688x1 ![0] bcast_S1650688_S1650688x1_0 (nrmP (W4 m ρ c (Proc.devRef .tc main_v31)))) := by
  show StableHlo.after hostOps1 (W4 m ρ c) (Proc.devRef .tc main_v44) = _
  after_results
  rfl

/-- Region 1 leaves every gathered row scaled by its edge's weight. -/
theorem W6_msg : W6 m ρ c (Proc.devRef .tc main_v45)
    = scale 1650688 128 (W5 m ρ c (Proc.devRef .tc main_v44)) (W5 m ρ c (Proc.devRef .tc main_v36)) :=
  (W6_arr m ρ c 2).trans (RegionValue.region1_value (V5 m ρ) c)

/-- The scatter-add of the padded messages. -/
theorem W7_sum : W7 m ρ c (Proc.devRef .tc main_v48)
    = Host.scatterAdd scatter_S50000x128_S1650688x1_S1650688x128_1_0_0_1
        (broadcastInDim S50000x128 ![] bcast_S_S50000x128 (constant (F := Ideal) S_ .f32 0x00000000#32))
        (broadcastInDim S1650688x1 ![0] bcast_S1650688_S1650688x1_0 (W6 m ρ c (Proc.devRef .tc main_v33)))
        (W6 m ρ c (Proc.devRef .tc main_v45)) := by
  show StableHlo.after hostOps2 (W6 m ρ c) (Proc.devRef .tc main_v48) = _
  after_results

/-- The first layer's aggregate is the reference's: the padded edges add nothing. -/
theorem W7_agg : W7 m ρ c (Proc.devRef .tc main_v48) = val_main_v43 (F := Ideal) (m ((c.tc : Thread nD τ).loc main_arg0)) (m ((c.tc : Thread nD τ).loc main_arg1)) (m ((c.tc : Thread nD τ).loc main_arg2)) := by
  rw [W7_sum, W6_msg, W6_dst, W5_rows, W5_norm, W4_src, W4_lin]
  exact (agg128 _ _ _ _).trans rfl

/-- The bias as one row. -/
theorem W7_bias : W7 m ρ c (Proc.devRef .tc main_v49) = shapeCast S1x128 (m ((c.tc : Thread nD τ).loc main_arg3)) shapeCasts_S128_S1x128 := by
  show StableHlo.after hostOps2 (W6 m ρ c) (Proc.devRef .tc main_v49) = _
  after_results
  rw [W6_arg3]
  rfl

/-- Region 2 leaves the first layer's output: the reference's. -/
theorem W8_hidden : W8 m ρ c (Proc.devRef .tc main_v50) = val_main_v47 (F := Ideal) (m ((c.tc : Thread nD τ).loc main_arg0)) (m ((c.tc : Thread nD τ).loc main_arg1)) (m ((c.tc : Thread nD τ).loc main_arg2)) (m ((c.tc : Thread nD τ).loc main_arg3)) :=
  calc W8 m ρ c (Proc.devRef .tc main_v50)
    _ = (dat2 (F := Ideal) (V7 m ρ) c).arrAt 2 cfg2.N := W8_arr m ρ c 2
    _ = biasRelu 50000 128 (V7 m ρ c main_v48) (V7 m ρ c main_v49) := RegionValue.region2_value (V7 m ρ) c
    _ = biasRelu 50000 128 (val_main_v43 (F := Ideal) (m ((c.tc : Thread nD τ).loc main_arg0)) (m ((c.tc : Thread nD τ).loc main_arg1)) (m ((c.tc : Thread nD τ).loc main_arg2))) (shapeCast S1x128 (m ((c.tc : Thread nD τ).loc main_arg3)) shapeCasts_S128_S1x128) := by
          rw [show V7 m ρ c main_v48 = _ from W7_agg m ρ c, show V7 m ρ c main_v49 = _ from W7_bias m ρ c]
    _ = _ := (Cert.GCN.Ref.ref_relu _ _ _ _).symm

/-! ## The second layer -/

/-- Region 3 leaves the dense product of the hidden features with `W2`: the reference's second `dot_general`. -/
theorem W9_lin : W9 m ρ c (Proc.devRef .tc main_v51) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  calc W9 m ρ c (Proc.devRef .tc main_v51)
    _ = (dat3 (F := Ideal) (V8 m ρ) c).arrAt 2 cfg3.N := W9_arr m ρ c 2
    _ = mm 50000 128 2 (V8 m ρ c main_v50) (V8 m ρ c main_arg4) := RegionValue.region3_value (V8 m ρ) c
    _ = mm 50000 128 2 (val_main_v47 (F := Ideal) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
          rw [show V8 m ρ c main_v50 = _ from W8_hidden m ρ c, show V8 m ρ c main_arg4 = (m ((c.tc : Thread nD τ).loc main_arg4)) from W8_arg4 m ρ c]
    _ = _ := (Cert.GCN.Ref.ref_mm2 _ _).symm

theorem W10_rows : W10 m ρ c (Proc.devRef .tc main_v58)
    = Host.gather gather_S50000x2_S1650688x1_S1650688x2_1_0_n_n_0_1_12 (W9 m ρ c (Proc.devRef .tc main_v51))
        (broadcastInDim S1650688x1 ![0] bcast_S1650688_S1650688x1_0 (nrmP (W9 m ρ c (Proc.devRef .tc main_v31)))) := by
  show StableHlo.after hostOps4 (W9 m ρ c) (Proc.devRef .tc main_v58) = _
  after_results
  rfl

theorem W11_msg : W11 m ρ c (Proc.devRef .tc main_v59)
    = scale 1650688 2 (W10 m ρ c (Proc.devRef .tc main_v58)) (W10 m ρ c (Proc.devRef .tc main_v36)) :=
  (W11_arr m ρ c 2).trans (RegionValue.region4_value (V10 m ρ) c)

theorem W12_sum : W12 m ρ c (Proc.devRef .tc main_v62)
    = Host.scatterAdd scatter_S50000x2_S1650688x1_S1650688x2_1_0_0_1
        (broadcastInDim S50000x2 ![] bcast_S_S50000x2 (constant (F := Ideal) S_ .f32 0x00000000#32))
        (broadcastInDim S1650688x1 ![0] bcast_S1650688_S1650688x1_0 (W11 m ρ c (Proc.devRef .tc main_v33)))
        (W11 m ρ c (Proc.devRef .tc main_v59)) := by
  show StableHlo.after hostOps5 (W11 m ρ c) (Proc.devRef .tc main_v62) = _
  after_results

/-- The second layer's aggregate is the reference's (whose second copy of the edge weights is its first). -/
theorem W12_agg : W12 m ρ c (Proc.devRef .tc main_v62) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W12_sum, W11_msg, W11_dst, W10_rows, W10_norm, W9_src, W9_lin]
  exact (agg2 _ _ _ _).trans rfl

theorem W12_bias : W12 m ρ c (Proc.devRef .tc main_v63) = shapeCast S1x2 (m ((c.tc : Thread nD τ).loc main_arg5)) shapeCasts_S2_S1x2 := by
  show StableHlo.after hostOps5 (W11 m ρ c) (Proc.devRef .tc main_v63) = _
  after_results
  rw [W11_arg5]
  rfl

/-- Region 5 leaves the kernel's result: the reference's last stage, as a function of the six arguments. -/
theorem W13_out : W13 m ρ c (Proc.devRef .tc main_v64) = val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  calc W13 m ρ c (Proc.devRef .tc main_v64)
    _ = (dat5 (F := Ideal) (V12 m ρ) c).arrAt 2 cfg5.N := W13_arr m ρ c 2
    _ = biasSoftmax 50000 2 (V12 m ρ c main_v62) (V12 m ρ c main_v63) := RegionValue.region5_value (V12 m ρ) c
    _ = biasSoftmax 50000 2 (val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (shapeCast S1x2 (m ((c.tc : Thread nD τ).loc main_arg5)) shapeCasts_S2_S1x2) := by
          rw [show V12 m ρ c main_v62 = _ from W12_agg m ρ c, show V12 m ρ c main_v63 = _ from W12_bias m ρ c]
    _ = _ := (Cert.GCN.Ref.ref_softmax _ _ _ _ _ _).symm

end Cert.KernelIdeal.Chain

end
-- ==== Proof.lean ====
/-
  A two-layer graph convolution, `softmax (Â · relu (Â · x · W1 + b1) · W2 + b2)` with `Â` the symmetrically normalised
  adjacency (self loops added), written as a kernel of six tiled dense regions around host gathers and scatter-adds, against
  the same network written with plain array operations.

  Over the extended reals the two agree entry by entry, for every edge list and all arguments:
  * each dense region's blocks tile its output, so the region computes one whole-array function — a matrix product (the
    casts to a narrower float are the identity, the product into a zero accumulator is the sum over the contracted axis),
    rows scaled by a column, bias and positive part, bias and row softmax — and the reference computes the same functions
    with one or a few array operations;
  * the row gathers and the scatter-adds are the same operations on both sides, except that the kernel pads the edge
    list to a multiple of its edge tile with edges `0 → 0` of weight `0`: a padded edge's message is `h[0] · 0 = 0`,
    and a sum is unchanged by zero terms, so every node's aggregate is the reference's;
  * the degrees, their inverse square roots and the edge weights are computed by the same operations on both sides
    (once in the kernel, once per layer in the reference).
  Neither side's arithmetic uses a law that fails at an infinity, so the precondition (finite inputs) is never opened.
  The ideal pass rewrote nothing, so the kernel's idealisation is its own text read over the extended reals.
-/
import proofs.«130536_j28544352649461_1_alg».proof.Defs
import proofs.«130536_j28544352649461_1_alg».proof.Proof.Gen.Kernel
import proofs.«130536_j28544352649461_1_alg».proof.Proof.Gen.Kernel.Skeleton
import proofs.«130536_j28544352649461_1_alg».proof.Proof.Gen.Kernel.Launch
import proofs.«130536_j28544352649461_1_alg».proof.Proof.Gen.Kernel.Points
import proofs.«130536_j28544352649461_1_alg».proof.Proof.Gen.Kernel.Frame
import proofs.«130536_j28544352649461_1_alg».proof.Proof.Gen.KernelIdeal
import proofs.«130536_j28544352649461_1_alg».proof.Proof.Gen.KernelIdeal.Skeleton
import proofs.«130536_j28544352649461_1_alg».proof.Proof.Gen.KernelIdeal.Launch
import proofs.«130536_j28544352649461_1_alg».proof.Proof.Gen.KernelIdeal.Points
import proofs.«130536_j28544352649461_1_alg».proof.Proof.Gen.KernelIdeal.Frame
import proofs.«130536_j28544352649461_1_alg».proof.Proof.Gen.ReferenceIdeal
import proofs.«130536_j28544352649461_1_alg».proof.Proof.Gen.Pre_finite_inputs
import proofs.«130536_j28544352649461_1_alg».proof.Proof.RunNamed
import proofs.«130536_j28544352649461_1_alg».proof.Proof.RefRunP
import proofs.«130536_j28544352649461_1_alg».proof.Proof.RefReadP
import proofs.«130536_j28544352649461_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (shared) arguments in their result arrays: the kernel's
    by the read-back of its thirteen segments, the reference's by its run. -/
theorem algebraic : Cert.algebraic_KernelIdeal_ReferenceIdeal := by
  intro m ρ m' ρ' _ hagree
  refine ⟨fun c => Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.W13_out m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
